-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S128x64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128x64 .f32) (main_arg8 : FVec F S64 .f32) (main_arg9 : FVec F S128x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x800000 32) (main_arg2 : FVec F S64x128 .f32) (main_arg3 : FVec F S128 .f32) (main_arg4 : FVec F S64x128 .f32) (main_arg5 : FVec F S128 .f32) (main_arg6 : FVec F S128 .f32) (main_arg7 : FVec F S128x64 .f32) (main_arg8 : FVec F S64 .f32) (main_arg9 : FVec F S128x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x128 : Shape := ⟨2, ![1, 128]⟩
abbrev S50000x128 : Shape := ⟨2, ![50000, 128]⟩
abbrev S10000x64 : Shape := ⟨2, ![10000, 64]⟩
abbrev S10000x128 : Shape := ⟨2, ![10000, 128]⟩
abbrev S800000x128 : Shape := ⟨2, ![800000, 128]⟩
abbrev S1x64 : Shape := ⟨2, ![1, 64]⟩

abbrev nBuf : Space → Nat
  | .hbm => 82
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x1, .f32⟩
  | .hbm, ⟨47, _⟩ => ⟨S50000x64, .f32⟩
  | .hbm, ⟨48, _⟩ => ⟨S50000x64, .f32⟩
  | .hbm, ⟨49, _⟩ => ⟨S1x128, .f32⟩
  | .hbm, ⟨50, _⟩ => ⟨S50000x128, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S50000x128, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S1x64, .f32⟩
  | .hbm, ⟨81, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S10000x128, .f32⟩
  | .local _ .vmem, ⟨8, _⟩ => ⟨S10000x128, .f32⟩
  | .local _ .vmem, ⟨9, _⟩ => ⟨S1x128, .f32⟩
  | .local _ .vmem, ⟨10, _⟩ => ⟨S1x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S128x64, .f32⟩
  | .local _ .vmem, ⟨24, _⟩ => ⟨S1x64, .f32⟩
  | .local _ .vmem, ⟨25, _⟩ => ⟨S128x64, .f32⟩
  | .local _ .vmem, ⟨26, _⟩ => ⟨S10000x64, .f32⟩
  | .local _ .vmem, ⟨27, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev main_v29_2 : Ref sig .tc := ⟨.hbm, 52, rfl⟩
abbrev main_cst_7 : Ref sig .tc := ⟨.hbm, 53, rfl⟩
abbrev main_v30 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_c_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  bcast_S_S1x128 : S_.BroadcastsInDim S1x128 (![] : Fin 0 → Fin S1x128.rank)
  shapeCasts_S10000x128_S10000x128 : S10000x128.ShapeCasts S10000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x128_S10000x128_1_0_0_1_n_n_wf : DotDims.WF S10000x64 S64x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S50000x128.size a
  hwx0_5 : ∀ i : grid0.Coords, EltTy.bits .f32 = 32 ∨ (Rect.block (s := S50000x128) S10000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S50000x128.size a
  hwx1_5 : ∀ i : grid1.Coords, EltTy.bits .f32 = 32 ∨ (Rect.block (s := S50000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .f32 = 32 ∨ (Rect.block (s := S50000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S50000x64.size a
  hwx2_5 : ∀ i : grid2.Coords, EltTy.bits .f32 = 32 ∨ (Rect.block (s := S50000x64) S10000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v27) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29_0) S10000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v29_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v29_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩

abbrev nBuf : Space → Nat
  | .hbm => 110
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x1, .f32⟩
  | .hbm, ⟨47, _⟩ => ⟨S50000x64, .f32⟩
  | .hbm, ⟨48, _⟩ => ⟨S50000x64, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x128, .f32⟩
  | .hbm, ⟨97, _⟩ => ⟨S_, .f32⟩
  | .hbm, ⟨98, _⟩ => ⟨S50000x128, .f32⟩
  | .hbm, ⟨99, _⟩ => ⟨S800000x1, .i32⟩
  | .hbm, ⟨100, _⟩ => ⟨S50000x128, .f32⟩
  | .hbm, ⟨101, _⟩ => ⟨S50000x1, .f32⟩
  | .hbm, ⟨102, _⟩ => ⟨S50000x128, .f32⟩
  | .hbm, ⟨103, _⟩ => ⟨S50000x128, .f32⟩
  | .hbm, ⟨104, _⟩ => ⟨S50000x64, .f32⟩
  | .hbm, ⟨105, _⟩ => ⟨S1x64, .f32⟩
  | .hbm, ⟨106, _⟩ => ⟨S50000x64, .f32⟩
  | .hbm, ⟨107, _⟩ => ⟨S50000x64, .f32⟩
  | .hbm, ⟨108, _⟩ => ⟨S50000x64, .f32⟩
  | .hbm, ⟨109, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_c_12 : Ref sig .tc := ⟨.hbm, 88, rfl⟩
abbrev main_v60 : Ref sig .tc := ⟨.hbm, 89, rfl⟩
abbrev main_v61 : Ref sig .tc := ⟨.hbm, 90, rfl⟩
abbrev main_c_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
import proofs.«160027_j3092376453137_1_alg».proof.KernelIdeal
import Idealize.ShloMosaic.PureOps.Ideal
import Idealize.ShloMosaic.PureOps.Ideal.Laws
import Idealize.ShloMosaic.Lib.ValueIdx

/-!
# The layers of the encoder as functions of whole arrays

Every array is a function from its index to an extended real.  A SAGE layer sends node features `h`, their
neighbourhood means `a` and the weights to `a · Wl + h · Wr + b`; batch normalisation subtracts a column's mean,
scales by the inverse root of its variance plus a small constant, applies the affine pair and clips at zero.
The column statistics are the plain sums over all 50000 rows of an entry and of its square.
-/

noncomputable section

namespace Cert.Spec

open Idealize.ShloMosaic Idealize.ShloMosaic.ValueIdx Cert.KernelIdeal
open scoped BigOperators

/-- An extended real that is a real number. -/
def IsReal (x : EReal) : Prop := ∃ r : ℝ, x = (r : EReal)

/-- The first layer at node `p`, hidden column `q`: `(∑ₖ a[p,k]·wl[k,q] + ∑ₖ x[p,k]·wr[k,q]) + b[0,q]`. -/
def sage1At (a x : FVec Ideal S50000x64 .f32) (wl : FVec Ideal S64x128 .f32) (b : FVec Ideal S1x128 .f32)
    (wr : FVec Ideal S64x128 .f32) (p : Fin 50000) (q : Fin 128) : EReal :=
  ((∑ k : Fin 64, a (ix2 p k) * wl (ix2 k q)) + ∑ k : Fin 64, x (ix2 p k) * wr (ix2 k q)) + b (ix2 0 q)

/-- The first layer as a whole array. -/
def sage1 (a x : FVec Ideal S50000x64 .f32) (wl : FVec Ideal S64x128 .f32) (b : FVec Ideal S1x128 .f32)
    (wr : FVec Ideal S64x128 .f32) : FVec Ideal S50000x128 .f32 :=
  fun i => sage1At a x wl b wr (i 0) (i 1)

theorem sage1_ix2 (a x : FVec Ideal S50000x64 .f32) (wl : FVec Ideal S64x128 .f32) (b : FVec Ideal S1x128 .f32)
    (wr : FVec Ideal S64x128 .f32) (p : Fin 50000) (q : Fin 128) :
    sage1 a x wl b wr (ix2 p q) = sage1At a x wl b wr p q := rfl

/-- The second layer at node `p`, output column `q`. -/
def sage2At (a h : FVec Ideal S50000x128 .f32) (wl : FVec Ideal S128x64 .f32) (b : FVec Ideal S1x64 .f32)
    (wr : FVec Ideal S128x64 .f32) (p : Fin 50000) (q : Fin 64) : EReal :=
  ((∑ k : Fin 128, a (ix2 p k) * wl (ix2 k q)) + ∑ k : Fin 128, h (ix2 p k) * wr (ix2 k q)) + b (ix2 0 q)

/-- The second layer as a whole array. -/
def sage2 (a h : FVec Ideal S50000x128 .f32) (wl : FVec Ideal S128x64 .f32) (b : FVec Ideal S1x64 .f32)
    (wr : FVec Ideal S128x64 .f32) : FVec Ideal S50000x64 .f32 :=
  fun i => sage2At a h wl b wr (i 0) (i 1)

theorem sage2_ix2 (a h : FVec Ideal S50000x128 .f32) (wl : FVec Ideal S128x64 .f32) (b : FVec Ideal S1x64 .f32)
    (wr : FVec Ideal S128x64 .f32) (p : Fin 50000) (q : Fin 64) :
    sage2 a h wl b wr (ix2 p q) = sage2At a h wl b wr p q := rfl

/-- The sum of column `q` over all nodes, kept as a one-row array. -/
def colsum (h : FVec Ideal S50000x128 .f32) : FVec Ideal S1x128 .f32 :=
  fun i => ∑ r : Fin 50000, h (ix2 r (i 1))

/-- The sum of the squares of column `q` over all nodes, kept as a one-row array. -/
def colsumsq (h : FVec Ideal S50000x128 .f32) : FVec Ideal S1x128 .f32 :=
  fun i => ∑ r : Fin 50000, h (ix2 r (i 1)) * h (ix2 r (i 1))

theorem colsum_ix2 (h : FVec Ideal S50000x128 .f32) (z : Fin 1) (q : Fin 128) :
    colsum h (ix2 z q) = ∑ r : Fin 50000, h (ix2 r q) := rfl

theorem colsumsq_ix2 (h : FVec Ideal S50000x128 .f32) (z : Fin 1) (q : Fin 128) :
    colsumsq h (ix2 z q) = ∑ r : Fin 50000, h (ix2 r q) * h (ix2 r q) := rfl

/-- Normalise, scale, shift and clip one entry: `max ((((h − μ)·rsqrt(v + ε))·g) + b, 0)`, the small constant and the
    zero as the words the programs hold. -/
def bnreluAt (h : FVec Ideal S50000x128 .f32) (mu var g b : FVec Ideal S1x128 .f32) (p : Fin 50000) (q : Fin 128) : EReal :=
  max ((((h (ix2 p q) - mu (ix2 0 q)) * Ideal.rsqrt (var (ix2 0 q) + Ideal.ofBits .f32 0x3727C5AC#32)) * g (ix2 0 q))
    + b (ix2 0 q)) (Ideal.ofBits .f32 0x00000000#32)

/-- Batch normalisation followed by the clip at zero, as a whole array. -/
def bnrelu (h : FVec Ideal S50000x128 .f32) (mu var g b : FVec Ideal S1x128 .f32) : FVec Ideal S50000x128 .f32 :=
  fun i => bnreluAt h mu var g b (i 0) (i 1)

theorem bnrelu_ix2 (h : FVec Ideal S50000x128 .f32) (mu var g b : FVec Ideal S1x128 .f32) (p : Fin 50000) (q : Fin 128) :
    bnrelu h mu var g b (ix2 p q) = bnreluAt h mu var g b p q := rfl

end Cert.Spec

end
-- ==== Proof.SpecAgg.lean ====
import proofs.«160027_j3092376453137_1_alg».proof.Proof.RefRead
import proofs.«160027_j3092376453137_1_alg».proof.Proof.Spec
import Idealize.ShloMosaic.Lib.Pipeline.Value
import Idealize.ShloMosaic.Lib.ValueLayout

/-!
# The encoder as the kernel's program computes it, over the reference's stage functions

The kernel's program and the reference share, operation for operation, the host chain that turns the edge list into
the neighbourhood mean of an array's rows (gather the rows at the edges' sources, add them into the edges'
destinations, scale each node's row by the inverse of its in-degree).  That chain is carried as one function and
never opened here: for the first layer it is the reference's stage `%27`, for the second the same chain applied to
the normalised array.  Around it the kernel's program computes the first layer, the column sums and sums of squares,
mean and variance as `s/N` and `ss/N − μ·μ`, the normalisation, and the second layer.
-/

noncomputable section

namespace Cert.Spec

open Idealize.ShloMosaic Idealize.ShloMosaic.ValueIdx
open Cert.ReferenceIdeal Cert.ReferenceIdeal.ReadP
open scoped BigOperators

/-- An array all of whose entries are real numbers. -/
def AllReal {ι : Type} (f : ι → EReal) : Prop := ∀ i, IsReal (f i)

/-- A vector of 128 kept as a one-row array (the kernel's program reshapes; the reference broadcasts: the same entries). -/
def row128 (v : FVec Ideal S128 .f32) : FVec Ideal S1x128 .f32 := shapeCast S1x128 v (by decide)

/-- A vector of 64 kept as a one-row array. -/
def row64 (v : FVec Ideal S64 .f32) : FVec Ideal S1x64 .f32 := shapeCast S1x64 v (by decide)

/-- The node count `50000.0`, the word both programs divide by, as a one-row array. -/
def nodes : FVec Ideal S1x128 .f32 := broadcastInDim S1x128 ![] (by decide) (constant S_ .f32 0x47435000#32)

/-- The neighbourhood mean of the rows of a hidden array `h`: the reference's second aggregation chain with `h` in the
    place of its normalised array (gather at the sources, add into the destinations, scale by the inverse in-degree). -/
def agg128 (h : FVec Ideal S50000x128 .f32) (ei : IVec S2x800000 32) : FVec Ideal S50000x128 .f32 :=
  mulf (Host.scatterAdd scatter_S50000x128_S800000x1_S800000x128_1_0_0_1 (val_main_v67 (F := Ideal)) (val_main_v68 (F := Ideal) ei)
    (Host.gather gather_S50000x128_S800000x1_S800000x128_1_0_n_n_0_1_1128 h (val_main_v65 (F := Ideal) ei)))
    (val_main_v71 (F := Ideal) ei)

/-- Of the reference's normalised array it is the reference's stage `%72`. -/
theorem agg128_ref (x0 : FVec Ideal S50000x64 .f32) (x1 : IVec S2x800000 32) (x2 : FVec Ideal S64x128 .f32) (x3 : FVec Ideal S128 .f32)
    (x4 : FVec Ideal S64x128 .f32) (x5 x6 : FVec Ideal S128 .f32) :
    agg128 (val_main_v59 (F := Ideal) x0 x1 x2 x3 x4 x5 x6) x1 = val_main_v72 (F := Ideal) x0 x1 x2 x3 x4 x5 x6 := rfl

section Kernel
variable (x0 : FVec Ideal S50000x64 .f32) (x1 : IVec S2x800000 32) (x2 : FVec Ideal S64x128 .f32) (x3 : FVec Ideal S128 .f32)
  (x4 : FVec Ideal S64x128 .f32) (x5 x6 : FVec Ideal S128 .f32) (x7 : FVec Ideal S128x64 .f32) (x8 : FVec Ideal S64 .f32)
  (x9 : FVec Ideal S128x64 .f32)

/-- The first layer as the kernel's program computes it. -/
def h1K : FVec Ideal S50000x128 .f32 := sage1 (val_main_v27 (F := Ideal) x0 x1) x0 x2 (row128 x3) x4

/-- The column means: the column sums over the node count. -/
def muK : FVec Ideal S1x128 .f32 := Host.divf (colsum (h1K x0 x1 x2 x3 x4)) nodes

/-- The column variances as the kernel's program computes them: mean of squares minus squared mean. -/
def varK : FVec Ideal S1x128 .f32 :=
  subf (Host.divf (colsumsq (h1K x0 x1 x2 x3 x4)) nodes) (mulf (muK x0 x1 x2 x3 x4) (muK x0 x1 x2 x3 x4))

/-- The normalised, clipped hidden array. -/
def h2K : FVec Ideal S50000x128 .f32 :=
  bnrelu (h1K x0 x1 x2 x3 x4) (muK x0 x1 x2 x3 x4) (varK x0 x1 x2 x3 x4) (row128 x5) (row128 x6)

/-- The encoder's result as the kernel's program computes it. -/
def outK : FVec Ideal S50000x64 .f32 :=
  sage2 (agg128 (h2K x0 x1 x2 x3 x4 x5 x6) x1) (h2K x0 x1 x2 x3 x4 x5 x6) x7 (row64 x8) x9

end Kernel

end Cert.Spec

end
-- ==== Proof.KHost.lean ====
import proofs.«160027_j3092376453137_1_alg».proof.Proof.Gen.KernelIdeal.Frame
import proofs.«160027_j3092376453137_1_alg».proof.Proof.SpecAgg
import Idealize.ShloMosaic.Lib.Pipeline.Value
import Idealize.ShloMosaic.Lib.StableHlo.Run

/-!
# The arrays each kernel region is entered with, as functions of the launch memory

Between the regions the program runs host operations; a region changes only its own result arrays.  So every array a
region reads is either an argument as launched, a reshaped argument, the host chain of the edge list applied to an
earlier array, or an earlier region's result.
-/

set_option maxRecDepth 16384

noncomputable section

open Idealize.ShloMosaic Idealize.ShloMosaic.TcCoe Idealize.SL.Sem
open Idealize.ShloMosaic.Pipeline (Dat)

namespace Cert.KernelIdeal.Host

open Cert.KernelIdeal Cert.KernelIdeal.Gen Cert.Spec

variable (m : (ℓ : Loc nD τ sig) → Buf (Elt Ideal) ℓ) (ρ : Dev nD → PrngReg)

/-- A buffer that none of a literal list of host operations writes keeps its contents: every operation's result
    buffer is another reference. -/
local macro "unwritten" : tactic =>
  `(tactic| exact StableHlo.after_of_forall_not_mem _ _ (List.forall_iff_forall_mem.mp (by
      simp only [hostOps0, hostOps0_1, hostOps0_2, hostOps1, hostOps2, List.Forall, StableHlo.nullary_writes,
        StableHlo.unary_writes, StableHlo.binary_writes, StableHlo.ternary_writes, StableHlo.reshape_writes,
        Finset.mem_singleton]
      repeat' apply And.intro
      all_goals exact StableHlo.devRef_ne_of_ne (by decide))))

/-! ## The arguments: no host operation writes one, and a region changes only its result arrays -/

theorem W2_arg0 (c : Dev nD) : W2 m ρ c (Proc.devRef .tc main_arg0) = m ((c.tc : Thread nD τ).loc main_arg0) :=
  calc W2 m ρ c (Proc.devRef .tc main_arg0)
    _ = W1 m ρ c (Proc.devRef .tc main_arg0) := by unwritten
    _ = W0 m ρ c (Proc.devRef .tc main_arg0) := by unwritten
    _ = m ((c.tc : Thread nD τ).loc main_arg0) := rfl
theorem W3_arg0 (c : Dev nD) : W3 m ρ c (Proc.devRef .tc main_arg0) = m ((c.tc : Thread nD τ).loc main_arg0) :=
  (show W3 m ρ c (Proc.devRef .tc main_arg0) = W2 m ρ c (Proc.devRef .tc main_arg0) by unwritten).trans (W2_arg0 m ρ c)
theorem W2_arg2 (c : Dev nD) : W2 m ρ c (Proc.devRef .tc main_arg2) = m ((c.tc : Thread nD τ).loc main_arg2) :=
  calc W2 m ρ c (Proc.devRef .tc main_arg2)
    _ = W1 m ρ c (Proc.devRef .tc main_arg2) := by unwritten
    _ = W0 m ρ c (Proc.devRef .tc main_arg2) := by unwritten
    _ = m ((c.tc : Thread nD τ).loc main_arg2) := rfl
theorem W3_arg2 (c : Dev nD) : W3 m ρ c (Proc.devRef .tc main_arg2) = m ((c.tc : Thread nD τ).loc main_arg2) :=
  (show W3 m ρ c (Proc.devRef .tc main_arg2) = W2 m ρ c (Proc.devRef .tc main_arg2) by unwritten).trans (W2_arg2 m ρ c)
theorem W2_arg3 (c : Dev nD) : W2 m ρ c (Proc.devRef .tc main_arg3) = m ((c.tc : Thread nD τ).loc main_arg3) :=
  calc W2 m ρ c (Proc.devRef .tc main_arg3)
    _ = W1 m ρ c (Proc.devRef .tc main_arg3) := by unwritten
    _ = W0 m ρ c (Proc.devRef .tc main_arg3) := by unwritten
    _ = m ((c.tc : Thread nD τ).loc main_arg3) := rfl
theorem W2_arg4 (c : Dev nD) : W2 m ρ c (Proc.devRef .tc main_arg4) = m ((c.tc : Thread nD τ).loc main_arg4) :=
  calc W2 m ρ c (Proc.devRef .tc main_arg4)
    _ = W1 m ρ c (Proc.devRef .tc main_arg4) := by unwritten
    _ = W0 m ρ c (Proc.devRef .tc main_arg4) := by unwritten
    _ = m ((c.tc : Thread nD τ).loc main_arg4) := rfl
theorem W3_arg4 (c : Dev nD) : W3 m ρ c (Proc.devRef .tc main_arg4) = m ((c.tc : Thread nD τ).loc main_arg4) :=
  (show W3 m ρ c (Proc.devRef .tc main_arg4) = W2 m ρ c (Proc.devRef .tc main_arg4) by unwritten).trans (W2_arg4 m ρ c)
theorem W2_arg5 (c : Dev nD) : W2 m ρ c (Proc.devRef .tc main_arg5) = m ((c.tc : Thread nD τ).loc main_arg5) :=
  calc W2 m ρ c (Proc.devRef .tc main_arg5)
    _ = W1 m ρ c (Proc.devRef .tc main_arg5) := by unwritten
    _ = W0 m ρ c (Proc.devRef .tc main_arg5) := by unwritten
    _ = m ((c.tc : Thread nD τ).loc main_arg5) := rfl
theorem W3_arg5 (c : Dev nD) : W3 m ρ c (Proc.devRef .tc main_arg5) = m ((c.tc : Thread nD τ).loc main_arg5) :=
  (show W3 m ρ c (Proc.devRef .tc main_arg5) = W2 m ρ c (Proc.devRef .tc main_arg5) by unwritten).trans (W2_arg5 m ρ c)
theorem W2_arg6 (c : Dev nD) : W2 m ρ c (Proc.devRef .tc main_arg6) = m ((c.tc : Thread nD τ).loc main_arg6) :=
  calc W2 m ρ c (Proc.devRef .tc main_arg6)
    _ = W1 m ρ c (Proc.devRef .tc main_arg6) := by unwritten
    _ = W0 m ρ c (Proc.devRef .tc main_arg6) := by unwritten
    _ = m ((c.tc : Thread nD τ).loc main_arg6) := rfl
theorem W3_arg6 (c : Dev nD) : W3 m ρ c (Proc.devRef .tc main_arg6) = m ((c.tc : Thread nD τ).loc main_arg6) :=
  (show W3 m ρ c (Proc.devRef .tc main_arg6) = W2 m ρ c (Proc.devRef .tc main_arg6) by unwritten).trans (W2_arg6 m ρ c)
theorem W2_arg7 (c : Dev nD) : W2 m ρ c (Proc.devRef .tc main_arg7) = m ((c.tc : Thread nD τ).loc main_arg7) :=
  calc W2 m ρ c (Proc.devRef .tc main_arg7)
    _ = W1 m ρ c (Proc.devRef .tc main_arg7) := by unwritten
    _ = W0 m ρ c (Proc.devRef .tc main_arg7) := by unwritten
    _ = m ((c.tc : Thread nD τ).loc main_arg7) := rfl
theorem W3_arg7 (c : Dev nD) : W3 m ρ c (Proc.devRef .tc main_arg7) = m ((c.tc : Thread nD τ).loc main_arg7) :=
  (show W3 m ρ c (Proc.devRef .tc main_arg7) = W2 m ρ c (Proc.devRef .tc main_arg7) by unwritten).trans (W2_arg7 m ρ c)
theorem W2_arg8 (c : Dev nD) : W2 m ρ c (Proc.devRef .tc main_arg8) = m ((c.tc : Thread nD τ).loc main_arg8) :=
  calc W2 m ρ c (Proc.devRef .tc main_arg8)
    _ = W1 m ρ c (Proc.devRef .tc main_arg8) := by unwritten
    _ = W0 m ρ c (Proc.devRef .tc main_arg8) := by unwritten
    _ = m ((c.tc : Thread nD τ).loc main_arg8) := rfl
theorem W3_arg8 (c : Dev nD) : W3 m ρ c (Proc.devRef .tc main_arg8) = m ((c.tc : Thread nD τ).loc main_arg8) :=
  (show W3 m ρ c (Proc.devRef .tc main_arg8) = W2 m ρ c (Proc.devRef .tc main_arg8) by unwritten).trans (W2_arg8 m ρ c)
theorem W2_arg9 (c : Dev nD) : W2 m ρ c (Proc.devRef .tc main_arg9) = m ((c.tc : Thread nD τ).loc main_arg9) :=
  calc W2 m ρ c (Proc.devRef .tc main_arg9)
    _ = W1 m ρ c (Proc.devRef .tc main_arg9) := by unwritten
    _ = W0 m ρ c (Proc.devRef .tc main_arg9) := by unwritten
    _ = m ((c.tc : Thread nD τ).loc main_arg9) := rfl
theorem W3_arg9 (c : Dev nD) : W3 m ρ c (Proc.devRef .tc main_arg9) = m ((c.tc : Thread nD τ).loc main_arg9) :=
  (show W3 m ρ c (Proc.devRef .tc main_arg9) = W2 m ρ c (Proc.devRef .tc main_arg9) by unwritten).trans (W2_arg9 m ρ c)
theorem W4_arg5 (c : Dev nD) : W4 m ρ c (Proc.devRef .tc main_arg5) = m ((c.tc : Thread nD τ).loc main_arg5) :=
  (W4_of_ne m ρ c main_arg5 (by decide)).trans (W3_arg5 m ρ c)
theorem W4_arg6 (c : Dev nD) : W4 m ρ c (Proc.devRef .tc main_arg6) = m ((c.tc : Thread nD τ).loc main_arg6) :=
  (W4_of_ne m ρ c main_arg6 (by decide)).trans (W3_arg6 m ρ c)
theorem W6_arg7 (c : Dev nD) : W6 m ρ c (Proc.devRef .tc main_arg7) = m ((c.tc : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by unwritten
    _ = W3 m ρ c (Proc.devRef .tc main_arg7) := W4_of_ne m ρ c main_arg7 (by decide)
    _ = m ((c.tc : Thread nD τ).loc main_arg7) := W3_arg7 m ρ c
theorem W6_arg8 (c : Dev nD) : W6 m ρ c (Proc.devRef .tc main_arg8) = m ((c.tc : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := by unwritten
    _ = W3 m ρ c (Proc.devRef .tc main_arg8) := W4_of_ne m ρ c main_arg8 (by decide)
    _ = m ((c.tc : Thread nD τ).loc main_arg8) := W3_arg8 m ρ c
theorem W6_arg9 (c : Dev nD) : W6 m ρ c (Proc.devRef .tc main_arg9) = m ((c.tc : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := by unwritten
    _ = W3 m ρ c (Proc.devRef .tc main_arg9) := W4_of_ne m ρ c main_arg9 (by decide)
    _ = m ((c.tc : Thread nD τ).loc main_arg9) := W3_arg9 m ρ c

/-! ## The edge list's vectors and the inverse in-degrees, computed before region 0

Both programs print the same operations; the dimension records of the two programs are different constants with the
same fields. -/

theorem scatter_deg_eq :
    (Cert.KernelIdeal.scatter_S50000_S800000x1_S800000_n_0_0_1 : ScatterDims S50000 S800000x1 S800000)
      = Cert.ReferenceIdeal.scatter_S50000_S800000x1_S800000_n_0_0_1 := rfl
theorem gather64_eq :
    (Cert.KernelIdeal.gather_S50000x64_S800000x1_S800000x64_1_0_n_n_0_1_164 : GatherDims S50000x64 S800000x1 S800000x64)
      = Cert.ReferenceIdeal.gather_S50000x64_S800000x1_S800000x64_1_0_n_n_0_1_164 := rfl
theorem scatter64_eq :
    (Cert.KernelIdeal.scatter_S50000x64_S800000x1_S800000x64_1_0_0_1 : ScatterDims S50000x64 S800000x1 S800000x64)
      = Cert.ReferenceIdeal.scatter_S50000x64_S800000x1_S800000x64_1_0_0_1 := rfl
theorem gather128_eq :
    (Cert.KernelIdeal.gather_S50000x128_S800000x1_S800000x128_1_0_n_n_0_1_1128 : GatherDims S50000x128 S800000x1 S800000x128)
      = Cert.ReferenceIdeal.gather_S50000x128_S800000x1_S800000x128_1_0_n_n_0_1_1128 := rfl
theorem scatter128_eq :
    (Cert.KernelIdeal.scatter_S50000x128_S800000x1_S800000x128_1_0_0_1 : ScatterDims S50000x128 S800000x1 S800000x128)
      = Cert.ReferenceIdeal.scatter_S50000x128_S800000x1_S800000x128_1_0_0_1 := rfl

/-- The edges' sources. -/
theorem W1_v1 (c : Dev nD) : W1 m ρ c (Proc.devRef .tc main_v1) = Cert.ReferenceIdeal.ReadP.val_main_v1 (F := Ideal) (m ((c.tc : Thread nD τ).loc main_arg1)) := by
  show StableHlo.after hostOps0 (W0 m ρ c) (Proc.devRef .tc main_v1) = _
  after_results; rfl

/-- The edges' destinations. -/
theorem W1_v3 (c : Dev nD) : W1 m ρ c (Proc.devRef .tc main_v3) = Cert.ReferenceIdeal.ReadP.val_main_v3 (F := Ideal) (m ((c.tc : Thread nD τ).loc main_arg1)) := by
  show StableHlo.after hostOps0 (W0 m ρ c) (Proc.devRef .tc main_v3) = _
  after_results; rfl

/-- Which nodes have an incoming edge. -/
theorem W1_v9 (c : Dev nD) : W1 m ρ c (Proc.devRef .tc main_v9) = Cert.ReferenceIdeal.ReadP.val_main_v9 (F := Ideal) (m ((c.tc : Thread nD τ).loc main_arg1)) := by
  show StableHlo.after hostOps0 (W0 m ρ c) (Proc.devRef .tc main_v9) = _
  after_results; rw [scatter_deg_eq]; rfl

/-- One over the in-degree clipped below at one. -/
theorem W1_v13 (c : Dev nD) : W1 m ρ c (Proc.devRef .tc main_v13) = Cert.ReferenceIdeal.ReadP.val_main_v13 (F := Ideal) (m ((c.tc : Thread nD τ).loc main_arg1)) := by
  show StableHlo.after hostOps0 (W0 m ρ c) (Proc.devRef .tc main_v13) = _
  after_results; rw [scatter_deg_eq]; rfl

theorem W1_cst_4 (c : Dev nD) : W1 m ρ c (Proc.devRef .tc main_cst_4) = Cert.ReferenceIdeal.ReadP.val_main_cst_4 (F := Ideal) := by
  show StableHlo.after hostOps0 (W0 m ρ c) (Proc.devRef .tc main_cst_4) = _
  after_results; rfl

/-- The inverse in-degree, zero at a node without incoming edges. -/
theorem W2_v14 (c : Dev nD) : W2 m ρ c (Proc.devRef .tc main_v14) = Cert.ReferenceIdeal.ReadP.val_main_v14 (F := Ideal) (m ((c.tc : Thread nD τ).loc main_arg1)) := by
  have h9 := W1_v9 m ρ c
  have h13 := W1_v13 m ρ c
  have h4 := W1_cst_4 m ρ c
  show StableHlo.after hostOps0_1 (W1 m ρ c) (Proc.devRef .tc main_v14) = _
  generalize W1 m ρ c = V1 at h9 h13 h4 ⊢
  after_results
  simp only [StableHlo.TRef.ofBuf, StableHlo.TRef.toBuf, cast_eq]
  rw [h9, h13, h4]; rfl

theorem W2_v1 (c : Dev nD) : W2 m ρ c (Proc.devRef .tc main_v1) = Cert.ReferenceIdeal.ReadP.val_main_v1 (F := Ideal) (m ((c.tc : Thread nD τ).loc main_arg1)) :=
  (show W2 m ρ c (Proc.devRef .tc main_v1) = W1 m ρ c (Proc.devRef .tc main_v1) by unwritten).trans (W1_v1 m ρ c)

theorem W2_v3 (c : Dev nD) : W2 m ρ c (Proc.devRef .tc main_v3) = Cert.ReferenceIdeal.ReadP.val_main_v3 (F := Ideal) (m ((c.tc : Thread nD τ).loc main_arg1)) :=
  (show W2 m ρ c (Proc.devRef .tc main_v3) = W1 m ρ c (Proc.devRef .tc main_v3) by unwritten).trans (W1_v3 m ρ c)

/-! ## The same three vectors when region 2 is entered: no later host operation writes them and no region has them
    among its arrays -/

/-- The edges' sources are read back unchanged. -/
theorem W6_v1 (c : Dev nD) : W6 m ρ c (Proc.devRef .tc main_v1) = W2 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := by unwritten
    _ = W3 m ρ c (Proc.devRef .tc main_v1) := W4_of_ne m ρ c main_v1 (by decide)
    _ = W2 m ρ c (Proc.devRef .tc main_v1) := by unwritten

/-- The edges' destinations are read back unchanged. -/
theorem W6_v3 (c : Dev nD) : W6 m ρ c (Proc.devRef .tc main_v3) = W2 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by unwritten
    _ = W3 m ρ c (Proc.devRef .tc main_v3) := W4_of_ne m ρ c main_v3 (by decide)
    _ = W2 m ρ c (Proc.devRef .tc main_v3) := by unwritten

/-- The inverse in-degrees are read back unchanged. -/
theorem W6_v14 (c : Dev nD) : W6 m ρ c (Proc.devRef .tc main_v14) = W2 m ρ c (Proc.devRef .tc main_v14) :=
  calc W6 m ρ c (Proc.devRef .tc main_v14)
    _ = W5 m ρ c (Proc.devRef .tc main_v14) := W6_of_ne m ρ c main_v14 (by decide)
    _ = W4 m ρ c (Proc.devRef .tc main_v14) := by unwritten
    _ = W3 m ρ c (Proc.devRef .tc main_v14) := W4_of_ne m ρ c main_v14 (by decide)
    _ = W2 m ρ c (Proc.devRef .tc main_v14) := by unwritten

/-! ## Region 0's entry -/

/-- The neighbourhood mean of the node features: the same host chain as the reference's stage `%27`. -/
theorem V3_v27 (c : Dev nD) :
    V3 m ρ c main_v27 = Cert.ReferenceIdeal.ReadP.val_main_v27 (F := Ideal) (m ((c.tc : Thread nD τ).loc main_arg0)) (m ((c.tc : Thread nD τ).loc main_arg1)) := by
  have h0 := W2_arg0 m ρ c
  have h1 := W2_v1 m ρ c
  have h3 := W2_v3 m ρ c
  have h14 := W2_v14 m ρ c
  show StableHlo.after hostOps0_2 (W2 m ρ c) (Proc.devRef .tc main_v27) = _
  generalize W2 m ρ c = V2 at h0 h1 h3 h14 ⊢
  after_results_simp
  rw [h0, h1, h3, h14, gather64_eq, scatter64_eq]; rfl

theorem V3_arg0 (c : Dev nD) : V3 m ρ c main_arg0 = m ((c.tc : Thread nD τ).loc main_arg0) :=
  W3_arg0 m ρ c

theorem V3_arg2 (c : Dev nD) : V3 m ρ c main_arg2 = m ((c.tc : Thread nD τ).loc main_arg2) :=
  W3_arg2 m ρ c

theorem V3_arg4 (c : Dev nD) : V3 m ρ c main_arg4 = m ((c.tc : Thread nD τ).loc main_arg4) :=
  W3_arg4 m ρ c

/-- The first bias as a one-row array. -/
theorem V3_v28 (c : Dev nD) : V3 m ρ c main_v28 = row128 (m ((c.tc : Thread nD τ).loc main_arg3)) := by
  have h3 := W2_arg3 m ρ c
  show StableHlo.after hostOps0_2 (W2 m ρ c) (Proc.devRef .tc main_v28) = _
  generalize W2 m ρ c = V2 at h3 ⊢
  after_results
  rw [h3]; rfl

/-! ## Region 1's entry: region 0's three results, the statistics divided by the node count -/

theorem V5_v29_0 (c : Dev nD) : V5 m ρ c main_v29_0 = (dat0 (V3 m ρ) c).arrAt 5 cfg0.N :=
  (show W5 m ρ c (Proc.devRef .tc main_v29_0) = W4 m ρ c (Proc.devRef .tc main_v29_0) by unwritten).trans (W4_arr m ρ c 5)

/-- The column means. -/
theorem V5_v31 (c : Dev nD) : V5 m ρ c main_v31 = Host.divf ((dat0 (V3 m ρ) c).arrAt 6 cfg0.N) nodes := by
  have h6 : W4 m ρ c (Proc.devRef .tc main_v29_1) = (dat0 (V3 m ρ) c).arrAt 6 cfg0.N := W4_arr m ρ c 6
  show StableHlo.after hostOps1 (W4 m ρ c) (Proc.devRef .tc main_v31) = _
  after_results
  rw [h6]; rfl

/-- The column variances: the mean of squares minus the squared mean. -/
theorem V5_v35 (c : Dev nD) :
    V5 m ρ c main_v35
      = subf (Host.divf ((dat0 (V3 m ρ) c).arrAt 7 cfg0.N) nodes)
          (mulf (Host.divf ((dat0 (V3 m ρ) c).arrAt 6 cfg0.N) nodes) (Host.divf ((dat0 (V3 m ρ) c).arrAt 6 cfg0.N) nodes)) := by
  have h6 : W4 m ρ c (Proc.devRef .tc main_v29_1) = (dat0 (V3 m ρ) c).arrAt 6 cfg0.N := W4_arr m ρ c 6
  have h7 : W4 m ρ c (Proc.devRef .tc main_v29_2) = (dat0 (V3 m ρ) c).arrAt 7 cfg0.N := W4_arr m ρ c 7
  show StableHlo.after hostOps1 (W4 m ρ c) (Proc.devRef .tc main_v35) = _
  after_results
  rw [h6, h7]; rfl

theorem V5_v36 (c : Dev nD) : V5 m ρ c main_v36 = row128 (m ((c.tc : Thread nD τ).loc main_arg5)) := by
  show StableHlo.after hostOps1 (W4 m ρ c) (Proc.devRef .tc main_v36) = _
  after_results
  rw [W4_arg5]; rfl

theorem V5_v37 (c : Dev nD) : V5 m ρ c main_v37 = row128 (m ((c.tc : Thread nD τ).loc main_arg6)) := by
  show StableHlo.after hostOps1 (W4 m ρ c) (Proc.devRef .tc main_v37) = _
  after_results
  rw [W4_arg6]; rfl

/-! ## Region 2's entry: region 1's result and its neighbourhood mean -/

theorem V7_v38 (c : Dev nD) : V7 m ρ c main_v38 = (dat1 (V5 m ρ) c).arrAt 5 cfg1.N :=
  (show W7 m ρ c (Proc.devRef .tc main_v38) = W6 m ρ c (Proc.devRef .tc main_v38) by unwritten).trans (W6_arr m ρ c 5)

/-- The neighbourhood mean of the normalised array: the shared host chain of the edge list, whose index vectors and
    inverse in-degrees were computed before region 0 and are read back unchanged. -/
theorem V7_v51 (c : Dev nD) :
    V7 m ρ c main_v51 = agg128 ((dat1 (V5 m ρ) c).arrAt 5 cfg1.N) (m ((c.tc : Thread nD τ).loc main_arg1)) := by
  have h1 := (W6_v1 m ρ c).trans (W2_v1 m ρ c)
  have h3 := (W6_v3 m ρ c).trans (W2_v3 m ρ c)
  have h14 := (W6_v14 m ρ c).trans (W2_v14 m ρ c)
  have h38 : W6 m ρ c (Proc.devRef .tc main_v38) = (dat1 (V5 m ρ) c).arrAt 5 cfg1.N := W6_arr m ρ c 5
  show StableHlo.after hostOps2 (W6 m ρ c) (Proc.devRef .tc main_v51) = _
  generalize W6 m ρ c = V6 at h1 h3 h14 h38 ⊢
  after_results_simp
  rw [h1, h3, h14, h38, gather128_eq, scatter128_eq]; rfl

theorem V7_arg7 (c : Dev nD) : V7 m ρ c main_arg7 = m ((c.tc : Thread nD τ).loc main_arg7) :=
  (show W7 m ρ c (Proc.devRef .tc main_arg7) = W6 m ρ c (Proc.devRef .tc main_arg7) by unwritten).trans (W6_arg7 m ρ c)

theorem V7_v52 (c : Dev nD) : V7 m ρ c main_v52 = row64 (m ((c.tc : Thread nD τ).loc main_arg8)) := by
  show StableHlo.after hostOps2 (W6 m ρ c) (Proc.devRef .tc main_v52) = _
  after_results
  rw [W6_arg8]; rfl

theorem V7_arg9 (c : Dev nD) : V7 m ρ c main_arg9 = m ((c.tc : Thread nD τ).loc main_arg9) :=
  (show W7 m ρ c (Proc.devRef .tc main_arg9) = W6 m ρ c (Proc.devRef .tc main_arg9) by unwritten).trans (W6_arg9 m ρ c)

/-! ## The result buffer after the last region -/

theorem W8_v53 (c : Dev nD) : W8 m ρ c (Proc.devRef .tc main_v53) = (dat2 (V7 m ρ) c).arrAt 5 cfg2.N :=
  W8_arr m ρ c 5

end Cert.KernelIdeal.Host

end
-- ==== Proof.KPay.lean ====
import proofs.«160027_j3092376453137_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
# The three kernel bodies' arithmetic, read at one entry

Each body's stored value is one pure function of the blocks it loads.  Read over the extended reals, a change of float
format is the identity, a matrix product into a zero accumulator is the sum of the products over the contracted axis,
and a sum along the rows is the plain sum over the row index; the one-row operands are read at row `0`.
-/

set_option maxRecDepth 16384

noncomputable section

open Idealize.ShloMosaic Idealize.ShloMosaic.ValueIdx
open scoped BigOperators

namespace Cert.KernelIdeal.Pay

open Cert.KernelIdeal Cert.KernelIdeal.Gen

/-! ## The two matrix products

A product's operand indices at an output entry `(p, q)` and a contraction coordinate `k` are `(p, k)` and `(k, q)`:
one equation per axis of each operand, then the sum over the contraction index re-indexed by its one coordinate. -/

theorem lhs_mm0_0 (i : S10000x128.Idx) (c : dot_S10000x64_S64x128_S10000x128_1_0_0_1_n_n.contr.Idx) :
    (dot_S10000x64_S64x128_S10000x128_1_0_0_1_n_n.lhsIdx i c 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhs_mm0_1 (i : S10000x128.Idx) (c : dot_S10000x64_S64x128_S10000x128_1_0_0_1_n_n.contr.Idx) :
    (dot_S10000x64_S64x128_S10000x128_1_0_0_1_n_n.lhsIdx i c 1).val = (c ⟨0, by decide⟩).val :=
  dot_S10000x64_S64x128_S10000x128_1_0_0_1_n_n.lhsIdx_val_of_single rfl i c
theorem rhs_mm0_0 (i : S10000x128.Idx) (c : dot_S10000x64_S64x128_S10000x128_1_0_0_1_n_n.contr.Idx) :
    (dot_S10000x64_S64x128_S10000x128_1_0_0_1_n_n.rhsIdx i c 0).val = (c ⟨0, by decide⟩).val :=
  dot_S10000x64_S64x128_S10000x128_1_0_0_1_n_n.rhsIdx_val_of_single rfl i c
theorem rhs_mm0_1 (i : S10000x128.Idx) (c : dot_S10000x64_S64x128_S10000x128_1_0_0_1_n_n.contr.Idx) :
    (dot_S10000x64_S64x128_S10000x128_1_0_0_1_n_n.rhsIdx i c 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- A `[10000, 64] × [64, 128]` product into the zero accumulator, at `(p, q)`: `∑ₖ a[p,k]·w[k,q]`. -/
theorem mm0_apply (a : FVec Ideal S10000x64 .bf16) (w : FVec Ideal S64x128 .bf16) (p : Fin 10000) (q : Fin 128) :
    matmul dot_S10000x64_S64x128_S10000x128_1_0_0_1_n_n none a w (constant (F := Ideal) S10000x128 .f32 0x00000000#32) (ix2 p q)
      = ∑ k : Fin 64, a (ix2 p k) * w (ix2 k q) := by
  simp only [matmul]
  rw [Ideal.matmul_constant_zero_apply, ← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx (ix2 p q) ((ValueIdx.contrEquiv1 dot_S10000x64_S64x128_S10000x128_1_0_0_1_n_n 64 rfl rfl).symm k) = ix2 p k := funext fun x => Fin.ext (by
    match x with
    | ⟨0, _⟩ => exact lhs_mm0_0 _ _
    | ⟨1, _⟩ => exact (lhs_mm0_1 _ _).trans hk)
  have er : dot_S10000x64_S64x128_S10000x128_1_0_0_1_n_n.rhsIdx (ix2 p q) ((ValueIdx.contrEquiv1 dot_S10000x64_S64x128_S10000x128_1_0_0_1_n_n 64 rfl rfl).symm k) = ix2 k q := funext fun x => Fin.ext (by
    match x with
    | ⟨0, _⟩ => exact (rhs_mm0_0 _ _).trans hk
    | ⟨1, _⟩ => exact rhs_mm0_1 _ _)
  rw [el, er]

theorem lhs_mm2_0 (i : S10000x64.Idx) (c : dot_S10000x128_S128x64_S10000x64_1_0_0_1_n_n.contr.Idx) :
    (dot_S10000x128_S128x64_S10000x64_1_0_0_1_n_n.lhsIdx i c 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_mm2_1 (i : S10000x64.Idx) (c : dot_S10000x128_S128x64_S10000x64_1_0_0_1_n_n.contr.Idx) :
    (dot_S10000x128_S128x64_S10000x64_1_0_0_1_n_n.lhsIdx i c 1).val = (c ⟨0, by decide⟩).val :=
  dot_S10000x128_S128x64_S10000x64_1_0_0_1_n_n.lhsIdx_val_of_single rfl i c
theorem rhs_mm2_0 (i : S10000x64.Idx) (c : dot_S10000x128_S128x64_S10000x64_1_0_0_1_n_n.contr.Idx) :
    (dot_S10000x128_S128x64_S10000x64_1_0_0_1_n_n.rhsIdx i c 0).val = (c ⟨0, by decide⟩).val :=
  dot_S10000x128_S128x64_S10000x64_1_0_0_1_n_n.rhsIdx_val_of_single rfl i c
theorem rhs_mm2_1 (i : S10000x64.Idx) (c : dot_S10000x128_S128x64_S10000x64_1_0_0_1_n_n.contr.Idx) :
    (dot_S10000x128_S128x64_S10000x64_1_0_0_1_n_n.rhsIdx i c 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A `[10000, 128] × [128, 64]` product into the zero accumulator, at `(p, q)`: `∑ₖ a[p,k]·w[k,q]`. -/
theorem mm2_apply (a : FVec Ideal S10000x128 .bf16) (w : FVec Ideal S128x64 .bf16) (p : Fin 10000) (q : Fin 64) :
    matmul dot_S10000x128_S128x64_S10000x64_1_0_0_1_n_n none a w (constant (F := Ideal) S10000x64 .f32 0x00000000#32) (ix2 p q)
      = ∑ k : Fin 128, a (ix2 p k) * w (ix2 k q) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun x => Fin.ext (by
    match x with
    | ⟨0, _⟩ => exact lhs_mm2_0 _ _
    | ⟨1, _⟩ => exact (lhs_mm2_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun x => Fin.ext (by
    match x with
    | ⟨0, _⟩ => exact (rhs_mm2_0 _ _).trans hk
    | ⟨1, _⟩ => exact rhs_mm2_1 _ _)
  rw [el, er]

/-! ## The sum along the rows, and the reciprocal square root at an entry -/

/-- The sum of a `[10000, 128]` block along its rows, at column `q`: the sum over the row index of the block at `(r, q)`.
    The index the reduction inserts the row into is `(r, q)`, coordinate by coordinate. -/
theorem colsum_apply (y : FVec Ideal S10000x128 .f32) (hφ : FKind.Formats .f32)
    (hacc : (0x00000000#32 : BitVec 32) = FKind.add.neutral .f32 hφ) (q : Fin 128) :
    multiReduction (F := Ideal) .add [0] S128 y 0x00000000#32 reduces_S10000x128_S128 hφ hacc (ix1 q)
      = ∑ r : Fin 10000, y (ix2 r q) := by
  refine (Ideal.multiReduction_add_single y 0x00000000#32 reduces_S10000x128_S128 hφ hacc (ix1 q)).trans ?_
  show ∑ r : Fin 10000, y (reduces_S10000x128_S128.lift (ix1 q) r) = ∑ r : Fin 10000, y (ix2 r q)
  refine Finset.sum_congr rfl fun r _ => congrArg y (funext fun x => Fin.ext ?_)
  match x with
  | ⟨0, _⟩ => rfl
  | ⟨1, _⟩ => rfl

/-- A reciprocal square root of a vector is taken entry by entry. -/
theorem rsqrt_apply {s : Shape} {φ : FTy} (a : FVec Ideal s φ) (i : s.Idx) : rsqrt a i = Ideal.rsqrt (a i) := rfl

/-- The first layer's row block: entry `(p, q)` is `(∑ₖ a[p,k]·wl[k,q] + ∑ₖ x[p,k]·wr[k,q]) + b[0,q]`. -/
theorem k0_pay3_apply (v3 v6 : Vec Ideal S10000x64 .f32) (v8 v10 : Vec Ideal S64x128 .f32) (v15 : Vec Ideal S1x128 .f32)
    (p : Fin 10000) (q : Fin 128) :
    k0_pay3 (F := Ideal) v3 v6 v8 v10 v15 (ix2 p q)
      = ((∑ k : Fin 64, v3 (ix2 p k) * v8 (ix2 k q)) + ∑ k : Fin 64, v6 (ix2 p k) * v10 (ix2 k q)) + v15 (ix2 0 q) := by
  unfold k0_pay3
  simp only [addf_apply, shapeCast_self, broadcastTo_1b_ab_apply, mm0_apply, truncf_apply]

/-- The running column sum: what it held plus the sum of the block's rows. -/
theorem k0_pay4_apply (v3 v6 : Vec Ideal S10000x64 .f32) (v8 v10 : Vec Ideal S64x128 .f32) (v15 v20 : Vec Ideal S1x128 .f32)
    (z : Fin 1) (q : Fin 128) :
    k0_pay4 (F := Ideal) v3 v6 v8 v10 v15 v20 (ix2 z q)
      = v20 (ix2 z q) + ∑ r : Fin 10000, k0_pay3 (F := Ideal) v3 v6 v8 v10 v15 (ix2 r q) := by
  unfold k0_pay4
  generalize k0_pay3 (F := Ideal) v3 v6 v8 v10 v15 = y
  simp only [addf_apply, shapeCast_self, shapeCast_a_1a_apply]
  exact congrArg (v20 (ix2 z q) + ·) (colsum_apply y _ _ q)

/-- The running column sum of squares: what it held plus the sum of the squares of the block's rows. -/
theorem k0_pay5_apply (v3 v6 : Vec Ideal S10000x64 .f32) (v8 v10 : Vec Ideal S64x128 .f32) (v15 v26 : Vec Ideal S1x128 .f32)
    (z : Fin 1) (q : Fin 128) :
    k0_pay5 (F := Ideal) v3 v6 v8 v10 v15 v26 (ix2 z q)
      = v26 (ix2 z q) + ∑ r : Fin 10000, k0_pay3 (F := Ideal) v3 v6 v8 v10 v15 (ix2 r q) * k0_pay3 (F := Ideal) v3 v6 v8 v10 v15 (ix2 r q) := by
  unfold k0_pay5
  generalize k0_pay3 (F := Ideal) v3 v6 v8 v10 v15 = y
  simp only [addf_apply, shapeCast_self, shapeCast_a_1a_apply]
  exact congrArg (v26 (ix2 z q) + ·) (colsum_apply (mulf y y) _ _ q)

/-- The two resets store the zero word everywhere. -/
theorem k0_pay1_apply (i : S1x128.Idx) : k0_pay1 (F := Ideal) i = Ideal.ofBits .f32 0x00000000#32 := rfl

theorem k0_pay2_apply (i : S1x128.Idx) : k0_pay2 (F := Ideal) i = Ideal.ofBits .f32 0x00000000#32 := rfl

/-- The normalisation body: `max ((((h − μ)·rsqrt(v + ε))·g) + b, 0)`; the body loads the variance (`v2`) before the mean (`v7`). -/
theorem k1_pay1_apply (v0 : Vec Ideal S10000x128 .f32) (v2 v7 v13 v17 : Vec Ideal S1x128 .f32) (p : Fin 10000) (q : Fin 128) :
    k1_pay1 (F := Ideal) v0 v2 v7 v13 v17 (ix2 p q)
      = max ((((v0 (ix2 p q) - v7 (ix2 0 q)) * Ideal.rsqrt (v2 (ix2 0 q) + Ideal.ofBits .f32 0x3727C5AC#32)) * v13 (ix2 0 q))
          + v17 (ix2 0 q)) (Ideal.ofBits .f32 0x00000000#32) := by
  unfold k1_pay1
  simp only [maximumf_apply, addf_apply, mulf_apply, subf_apply, broadcast_apply, shapeCast_self, broadcastTo_1b_ab_apply,
    rsqrt_apply]
  rfl

/-- The second layer's row block. -/
theorem k2_pay1_apply (v0 v3 : Vec Ideal S10000x128 .f32) (v6 v8 : Vec Ideal S128x64 .f32) (v13 : Vec Ideal S1x64 .f32)
    (p : Fin 10000) (q : Fin 64) :
    k2_pay1 (F := Ideal) v0 v3 v6 v8 v13 (ix2 p q)
      = ((∑ k : Fin 128, v0 (ix2 p k) * v6 (ix2 k q)) + ∑ k : Fin 128, v3 (ix2 p k) * v8 (ix2 k q)) + v13 (ix2 0 q) := by
  unfold k2_pay1
  simp only [addf_apply, shapeCast_self, broadcastTo_1b_ab_apply, mm2_apply, truncf_apply]

end Cert.KernelIdeal.Pay

end
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.KR0.lean ====
import proofs.«160027_j3092376453137_1_alg».proof.Proof.Gen.KernelIdeal.Frame
import proofs.«160027_j3092376453137_1_alg».proof.Proof.Spec
import proofs.«160027_j3092376453137_1_alg».proof.Proof.KPay
import proofs.«160027_j3092376453137_1_alg».proof.Proof.LibSumBlocks
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

/-!
# The first layer's region: its three result arrays

The region runs five points, one per block of 10000 rows.  At each point the body computes the layer's row block from
the blocks of the neighbourhood means and the node features and from the two weight arrays and the bias row, stores
it, and adds the block's column sums and column sums of squares to two running one-row buffers, which it sets to zero
first at the first point.  The layer's blocks are written back point by point and tile the 50000 rows; the two one-row
buffers are written back once, after the last point, and then hold the five blocks' sums added from zero in point
order, which over the extended reals is the sum over all 50000 rows.
-/

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Region0

open Cert.KernelIdeal Cert.KernelIdeal.Gen Cert.Spec

section Pieces

variable {F : FTy → Type} [FloatOps F]

/-- The zero offsets of a whole-block access, however spelt. -/
theorem hz : (![0, 0] : Fin 2 → Nat) = fun _ => 0 := funext fun a => by fin_cases a <;> rfl

/-! ## What each case of the body leaves in the three result buffers

The body loads its five input blocks whole and stores each result block whole.  The layer's row block is one store
of its payload.  At the first row block the two running sums are first stored as zero and read back, so the block
leaves zero plus the block's column sums; at the later row blocks it leaves what the block before left plus the
block's column sums. -/

/-- First row block: the layer's block is the layer's payload of the five input blocks. -/
theorem out_A_5 (c : Dev nD) (i : grid0.Coords) (a1 : Memref sig .tc .vmem S10000x64 .f32) (h1 : a1.IsWhole)
    (a2 : Memref sig .tc .vmem S10000x64 .f32) (h2 : a2.IsWhole) (a3 : Memref sig .tc .vmem S64x128 .f32) (h3 : a3.IsWhole)
    (a4 : Memref sig .tc .vmem S1x128 .f32) (h4 : a4.IsWhole) (a5 : Memref sig .tc .vmem S64x128 .f32) (h5 : a5.IsWhole)
    (a6 : Memref sig .tc .vmem S10000x128 .f32) (h6 : a6.IsWhole) (a7 : Memref sig .tc .vmem S1x128 .f32) (h7 : a7.IsWhole)
    (a8 : Memref sig .tc .vmem S1x128 .f32) (h8 : a8.IsWhole) (hc : cond0_0 i)
    (x0 x1 : Vec F S10000x64 .f32) (x2 : Vec F S64x128 .f32) (x3 : Vec F S1x128 .f32) (x4 : Vec F S64x128 .f32) :
    out0_A_5 c i a1 h1 a2 h2 a3 h3 a4 h4 a5 h5 a6 h6 a7 h7 a8 h8 hc x0 x1 x2 x3 x4 = k0_pay3 x0 x1 x2 x4 x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero (S := S10000x128) hz]
  simp only [View.readAt_eq_ld, h1.read_unread, h2.read_unread, h3.read_unread, h4.read_unread, h5.read_unread,
    View.ld_unit_zero (S := S10000x64) hz, View.ld_unit_zero (S := S64x128) hz, View.ld_unit_zero (S := S1x128) hz]

/-- First row block: the running column sums are the block's sums added to the stored zero. -/
theorem out_A_6 (c : Dev nD) (i : grid0.Coords) (a1 : Memref sig .tc .vmem S10000x64 .f32) (h1 : a1.IsWhole)
    (a2 : Memref sig .tc .vmem S10000x64 .f32) (h2 : a2.IsWhole) (a3 : Memref sig .tc .vmem S64x128 .f32) (h3 : a3.IsWhole)
    (a4 : Memref sig .tc .vmem S1x128 .f32) (h4 : a4.IsWhole) (a5 : Memref sig .tc .vmem S64x128 .f32) (h5 : a5.IsWhole)
    (a6 : Memref sig .tc .vmem S10000x128 .f32) (h6 : a6.IsWhole) (a7 : Memref sig .tc .vmem S1x128 .f32) (h7 : a7.IsWhole)
    (a8 : Memref sig .tc .vmem S1x128 .f32) (h8 : a8.IsWhole) (hc : cond0_0 i)
    (x0 x1 : Vec F S10000x64 .f32) (x2 : Vec F S64x128 .f32) (x3 : Vec F S1x128 .f32) (x4 : Vec F S64x128 .f32) :
    out0_A_6 c i a1 h1 a2 h2 a3 h3 a4 h4 a5 h5 a6 h6 a7 h7 a8 h8 hc x0 x1 x2 x3 x4 = k0_pay4 x0 x1 x2 x4 x3 (k0_pay1 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S10000x64) hz, View.ld_unit_zero (S := S64x128) hz, View.ld_unit_zero (S := S1x128) hz]

/-- First row block: the running column sums of squares are the block's sums added to the stored zero. -/
theorem out_A_7 (c : Dev nD) (i : grid0.Coords) (a1 : Memref sig .tc .vmem S10000x64 .f32) (h1 : a1.IsWhole)
    (a2 : Memref sig .tc .vmem S10000x64 .f32) (h2 : a2.IsWhole) (a3 : Memref sig .tc .vmem S64x128 .f32) (h3 : a3.IsWhole)
    (a4 : Memref sig .tc .vmem S1x128 .f32) (h4 : a4.IsWhole) (a5 : Memref sig .tc .vmem S64x128 .f32) (h5 : a5.IsWhole)
    (a6 : Memref sig .tc .vmem S10000x128 .f32) (h6 : a6.IsWhole) (a7 : Memref sig .tc .vmem S1x128 .f32) (h7 : a7.IsWhole)
    (a8 : Memref sig .tc .vmem S1x128 .f32) (h8 : a8.IsWhole) (hc : cond0_0 i)
    (x0 x1 : Vec F S10000x64 .f32) (x2 : Vec F S64x128 .f32) (x3 : Vec F S1x128 .f32) (x4 : Vec F S64x128 .f32) :
    out0_A_7 c i a1 h1 a2 h2 a3 h3 a4 h4 a5 h5 a6 h6 a7 h7 a8 h8 hc x0 x1 x2 x3 x4 = k0_pay5 x0 x1 x2 x4 x3 (k0_pay2 (F := F)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S10000x64) hz, View.ld_unit_zero (S := S64x128) hz, View.ld_unit_zero (S := S1x128) hz]

/-- Later row blocks: the layer's block is again the layer's payload of the five input blocks. -/
theorem out_B_5 (c : Dev nD) (i : grid0.Coords) (a1 : Memref sig .tc .vmem S10000x64 .f32) (h1 : a1.IsWhole)
    (a2 : Memref sig .tc .vmem S10000x64 .f32) (h2 : a2.IsWhole) (a3 : Memref sig .tc .vmem S64x128 .f32) (h3 : a3.IsWhole)
    (a4 : Memref sig .tc .vmem S1x128 .f32) (h4 : a4.IsWhole) (a5 : Memref sig .tc .vmem S64x128 .f32) (h5 : a5.IsWhole)
    (a6 : Memref sig .tc .vmem S10000x128 .f32) (h6 : a6.IsWhole) (a7 : Memref sig .tc .vmem S1x128 .f32) (h7 : a7.IsWhole)
    (a8 : Memref sig .tc .vmem S1x128 .f32) (h8 : a8.IsWhole) (hc : ¬cond0_0 i)
    (x0 x1 : Vec F S10000x64 .f32) (x2 : Vec F S64x128 .f32) (x3 : Vec F S1x128 .f32) (x4 : Vec F S64x128 .f32) (xo6 xo7 : Vec F S1x128 .f32) :
    out0_B_5 c i a1 h1 a2 h2 a3 h3 a4 h4 a5 h5 a6 h6 a7 h7 a8 h8 hc x0 x1 x2 x3 x4 xo6 xo7 = k0_pay3 x0 x1 x2 x4 x3 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero (S := S10000x128) hz]
  simp only [View.readAt_eq_ld, h1.read_unread, h2.read_unread, h3.read_unread, h4.read_unread, h5.read_unread,
    View.ld_unit_zero (S := S10000x64) hz, View.ld_unit_zero (S := S64x128) hz, View.ld_unit_zero (S := S1x128) hz]

/-- Later row blocks: the running column sums are what the block before left plus the block's sums. -/
theorem out_B_6 (c : Dev nD) (i : grid0.Coords) (a1 : Memref sig .tc .vmem S10000x64 .f32) (h1 : a1.IsWhole)
    (a2 : Memref sig .tc .vmem S10000x64 .f32) (h2 : a2.IsWhole) (a3 : Memref sig .tc .vmem S64x128 .f32) (h3 : a3.IsWhole)
    (a4 : Memref sig .tc .vmem S1x128 .f32) (h4 : a4.IsWhole) (a5 : Memref sig .tc .vmem S64x128 .f32) (h5 : a5.IsWhole)
    (a6 : Memref sig .tc .vmem S10000x128 .f32) (h6 : a6.IsWhole) (a7 : Memref sig .tc .vmem S1x128 .f32) (h7 : a7.IsWhole)
    (a8 : Memref sig .tc .vmem S1x128 .f32) (h8 : a8.IsWhole) (hc : ¬cond0_0 i)
    (x0 x1 : Vec F S10000x64 .f32) (x2 : Vec F S64x128 .f32) (x3 : Vec F S1x128 .f32) (x4 : Vec F S64x128 .f32) (xo6 xo7 : Vec F S1x128 .f32) :
    out0_B_6 c i a1 h1 a2 h2 a3 h3 a4 h4 a5 h5 a6 h6 a7 h7 a8 h8 hc x0 x1 x2 x3 x4 xo6 xo7 = k0_pay4 x0 x1 x2 x4 x3 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero (S := S1x128) hz]
  simp only [View.readAt_eq_ld, h1.read_unread, h2.read_unread, h3.read_unread, h4.read_unread, h5.read_unread, h7.read_unread,
    View.ld_unit_zero (S := S10000x64) hz, View.ld_unit_zero (S := S64x128) hz, View.ld_unit_zero (S := S1x128) hz]

/-- Later row blocks: the running column sums of squares likewise. -/
theorem out_B_7 (c : Dev nD) (i : grid0.Coords) (a1 : Memref sig .tc .vmem S10000x64 .f32) (h1 : a1.IsWhole)
    (a2 : Memref sig .tc .vmem S10000x64 .f32) (h2 : a2.IsWhole) (a3 : Memref sig .tc .vmem S64x128 .f32) (h3 : a3.IsWhole)
    (a4 : Memref sig .tc .vmem S1x128 .f32) (h4 : a4.IsWhole) (a5 : Memref sig .tc .vmem S64x128 .f32) (h5 : a5.IsWhole)
    (a6 : Memref sig .tc .vmem S10000x128 .f32) (h6 : a6.IsWhole) (a7 : Memref sig .tc .vmem S1x128 .f32) (h7 : a7.IsWhole)
    (a8 : Memref sig .tc .vmem S1x128 .f32) (h8 : a8.IsWhole) (hc : ¬cond0_0 i)
    (x0 x1 : Vec F S10000x64 .f32) (x2 : Vec F S64x128 .f32) (x3 : Vec F S1x128 .f32) (x4 : Vec F S64x128 .f32) (xo6 xo7 : Vec F S1x128 .f32) :
    out0_B_7 c i a1 h1 a2 h2 a3 h3 a4 h4 a5 h5 a6 h6 a7 h7 a8 h8 hc x0 x1 x2 x3 x4 xo6 xo7 = k0_pay5 x0 x1 x2 x4 x3 xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero (S := S1x128) hz]
  simp only [View.readAt_eq_ld, h1.read_unread, h2.read_unread, h3.read_unread, h4.read_unread, h5.read_unread, h8.read_unread,
    View.ld_unit_zero (S := S10000x64) hz, View.ld_unit_zero (S := S64x128) hz, View.ld_unit_zero (S := S1x128) hz]

end Pieces

/-! ## The input blocks, entry by entry

Row block t of the two node arrays holds rows 10000 t to 10000 t + 9999; the two weight arrays and the bias row are
one block each, the same at every point. -/

-- the contents of the core's buffers when the region is entered
variable (V : (c : Dev nD) → (b : Ref sig .tc) → Buf (Elt Ideal) ((c : Thread nD τ).loc b))

/-- The first layer of the arrays the region is entered with. -/
abbrev layer1 (c : Dev nD) : FVec Ideal S50000x128 .f32 :=
  sage1 (V c main_v27) (V c main_arg0) (V c main_arg2) (V c main_v28) (V c main_arg4)

/-- Row block t of the neighbourhood means. -/
abbrev aggBlk (c : Dev nD) (t : Fin cfg0.N) : Vec Ideal S10000x64 .f32 := iblk0 V c 0 t
/-- Row block t of the node features. -/
abbrev xBlk (c : Dev nD) (t : Fin cfg0.N) : Vec Ideal S10000x64 .f32 := iblk0 V c 1 t
/-- The weights applied to the neighbourhood means, as the window holds them at point t. -/
abbrev wlBlk (c : Dev nD) (t : Fin cfg0.N) : Vec Ideal S64x128 .f32 := iblk0 V c 2 t
/-- The bias row, as the window holds it at point t. -/
abbrev bBlk (c : Dev nD) (t : Fin cfg0.N) : Vec Ideal S1x128 .f32 := iblk0 V c 3 t
/-- The weights applied to the node's own features, as the window holds them at point t. -/
abbrev wrBlk (c : Dev nD) (t : Fin cfg0.N) : Vec Ideal S64x128 .f32 := iblk0 V c 4 t

/-- Row r of row block t is row 10000 t + r of the 50000. -/
def row (t : Fin cfg0.N) (r : Fin 10000) : Fin 50000 :=
  ⟨10000 * t.val + r.val, by have := t.isLt; have hN : cfg0.N = 5 := N_0; have := r.isLt; omega⟩

/-- The printed index maps, decided over the five points: the three row-blocked windows sit at block (t, 0), the
    others at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem aggBlk_apply (c : Dev nD) (t : Fin cfg0.N) (r : Fin 10000) (k : Fin 64) :
    aggBlk V c t (ix2 r k) = V c main_v27 (ix2 (row t r) k) := by
  obtain ⟨e0, e1, -⟩ := idx_facts t
  show iblk0 V c 0 t (ix2 r k) = _
  unfold iblk0
  rw [View.read_apply]
  show V c main_v27 _ = V c main_v27 _
  congr 1
  funext a
  apply Fin.ext
  match a with
  | ⟨0, _⟩ => show win0_0.index t (0 : Fin 2) * 10000 + 1 * r.val = 10000 * t.val + r.val; omega
  | ⟨1, _⟩ => show win0_0.index t (1 : Fin 2) * 64 + 1 * k.val = k.val; omega

theorem xBlk_apply (c : Dev nD) (t : Fin cfg0.N) (r : Fin 10000) (k : Fin 64) :
    xBlk V c t (ix2 r k) = V c main_arg0 (ix2 (row t r) k) := by
  obtain ⟨-, -, e0, e1, -⟩ := idx_facts t
  show iblk0 V c 1 t (ix2 r k) = _
  unfold iblk0
  rw [View.read_apply]
  show V c main_arg0 _ = V c main_arg0 _
  congr 1
  funext a
  apply Fin.ext
  match a with
  | ⟨0, _⟩ => show win0_1.index t (0 : Fin 2) * 10000 + 1 * r.val = 10000 * t.val + r.val; omega
  | ⟨1, _⟩ => show win0_1.index t (1 : Fin 2) * 64 + 1 * k.val = k.val; omega

theorem wlBlk_apply (c : Dev nD) (t : Fin cfg0.N) (k : Fin 64) (q : Fin 128) :
    wlBlk V c t (ix2 k q) = V c main_arg2 (ix2 k q) := by
  obtain ⟨-, -, -, -, e0, e1, -⟩ := idx_facts t
  show iblk0 V c 2 t (ix2 k q) = _
  unfold iblk0
  rw [View.read_apply]
  show V c main_arg2 _ = V c main_arg2 _
  congr 1
  funext a
  apply Fin.ext
  match a with
  | ⟨0, _⟩ => show win0_2.index t (0 : Fin 2) * 64 + 1 * k.val = k.val; omega
  | ⟨1, _⟩ => show win0_2.index t (1 : Fin 2) * 128 + 1 * q.val = q.val; omega

theorem bBlk_apply (c : Dev nD) (t : Fin cfg0.N) (z : Fin 1) (q : Fin 128) :
    bBlk V c t (ix2 z q) = V c main_v28 (ix2 z q) := by
  obtain ⟨-, -, -, -, -, -, e0, e1, -⟩ := idx_facts t
  show iblk0 V c 3 t (ix2 z q) = _
  unfold iblk0
  rw [View.read_apply]
  show V c main_v28 _ = V c main_v28 _
  congr 1
  funext a
  apply Fin.ext
  match a with
  | ⟨0, _⟩ => show win0_3.index t (0 : Fin 2) * 1 + 1 * z.val = z.val; omega
  | ⟨1, _⟩ => show win0_3.index t (1 : Fin 2) * 128 + 1 * q.val = q.val; omega

theorem wrBlk_apply (c : Dev nD) (t : Fin cfg0.N) (k : Fin 64) (q : Fin 128) :
    wrBlk V c t (ix2 k q) = V c main_arg4 (ix2 k q) := by
  obtain ⟨-, -, -, -, -, -, -, -, e0, e1, -⟩ := idx_facts t
  show iblk0 V c 4 t (ix2 k q) = _
  unfold iblk0
  rw [View.read_apply]
  show V c main_arg4 _ = V c main_arg4 _
  congr 1
  funext a
  apply Fin.ext
  match a with
  | ⟨0, _⟩ => show win0_4.index t (0 : Fin 2) * 64 + 1 * k.val = k.val; omega
  | ⟨1, _⟩ => show win0_4.index t (1 : Fin 2) * 128 + 1 * q.val = q.val; omega

/-- THE LAYER BLOCK BY BLOCK: entry (p, q) of the layer's payload of the blocks at point t is entry (10000 t + p, q)
    of the layer of the whole arrays. -/
theorem pay3_block (c : Dev nD) (t : Fin cfg0.N) (p : Fin 10000) (q : Fin 128) :
    k0_pay3 (F := Ideal) (aggBlk V c t) (xBlk V c t) (wlBlk V c t) (wrBlk V c t) (bBlk V c t) (ix2 p q)
      = layer1 V c (ix2 (row t p) q) := by
  refine (Pay.k0_pay3_apply (aggBlk V c t) (xBlk V c t) (wlBlk V c t) (wrBlk V c t) (bBlk V c t) p q).trans ?_
  show _ = sage1At (V c main_v27) (V c main_arg0) (V c main_arg2) (V c main_v28) (V c main_arg4) (row t p) q
  unfold sage1At
  refine congrArg₂ (· + ·) (congrArg₂ (· + ·) ?_ ?_) ?_
  · exact Finset.sum_congr rfl fun k _ => by rw [aggBlk_apply, wlBlk_apply]
  · exact Finset.sum_congr rfl fun k _ => by rw [xBlk_apply, wrBlk_apply]
  · exact bBlk_apply V c t 0 q

/-! ## What the three result buffers hold after each point -/

/-- After every point the first result buffer holds the layer's payload of that point's blocks. -/
theorem outs5 (c : Dev nD) (t : Fin cfg0.N) :
    (outsAt0 V c t.val t.isLt).1 = k0_pay3 (F := Ideal) (aggBlk V c t) (xBlk V c t) (wlBlk V c t) (wrBlk V c t) (bBlk V c t) := by
  by_cases h0 : t.val % 5 = 0
  · rw [outsAt0_A V c t h0]; dsimp only
    exact out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
  · rw [outsAt0_B V c t h0]; dsimp only
    exact out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

/-- The sum of column q of the layer over the rows of row block t. -/
def blockSum (c : Dev nD) (t : Fin cfg0.N) (q : Fin 128) : EReal :=
  ∑ r : Fin 10000, layer1 V c (ix2 (row t r) q)

/-- The sum of the squares of column q of the layer over the rows of row block t. -/
def blockSumSq (c : Dev nD) (t : Fin cfg0.N) (q : Fin 128) : EReal :=
  ∑ r : Fin 10000, layer1 V c (ix2 (row t r) q) * layer1 V c (ix2 (row t r) q)

/-- At the first row block the second result buffer holds that block's column sums: the stored zero plus them. -/
theorem outs6_A (c : Dev nD) (t : Fin cfg0.N) (h0 : t.val % 5 = 0) (z : Fin 1) (q : Fin 128) :
    (outsAt0 V c t.val t.isLt).2.1 (ix2 z q) = blockSum V c t q := by
  rw [outsAt0_A V c t h0]; dsimp only
  refine (congrFun (out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)) (ix2 z q)).trans ?_
  refine (Pay.k0_pay4_apply (aggBlk V c t) (xBlk V c t) (wlBlk V c t) (wrBlk V c t) (bBlk V c t) (k0_pay1 (F := Ideal)) z q).trans ?_
  rw [Pay.k0_pay1_apply, Ideal.ofBits_zero_f32, zero_add]
  exact Finset.sum_congr rfl fun r _ => pay3_block V c t r q

/-- At a later row block it holds what the block before left plus this block's column sums. -/
theorem outs6_B (c : Dev nD) (t : Fin cfg0.N) (h0 : ¬t.val % 5 = 0) (z : Fin 1) (q : Fin 128) :
    (outsAt0 V c t.val t.isLt).2.1 (ix2 z q) = (outsAt0 V c (t.val - 1) (Nat.lt_of_le_of_lt (Nat.sub_le _ _) t.isLt)).2.1 (ix2 z q) + blockSum V c t q := by
  rw [outsAt0_B V c t h0]; dsimp only
  refine (congrFun (out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) (ix2 z q)).trans ?_
  refine (Pay.k0_pay4_apply (aggBlk V c t) (xBlk V c t) (wlBlk V c t) (wrBlk V c t) (bBlk V c t) (outsAt0 V c (t.val - 1) (Nat.lt_of_le_of_lt (Nat.sub_le _ _) t.isLt)).2.1 z q).trans ?_
  exact congrArg (_ + ·) (Finset.sum_congr rfl fun r _ => pay3_block V c t r q)

/-- At the first row block the third result buffer holds that block's column sums of squares. -/
theorem outs7_A (c : Dev nD) (t : Fin cfg0.N) (h0 : t.val % 5 = 0) (z : Fin 1) (q : Fin 128) :
    (outsAt0 V c t.val t.isLt).2.2 (ix2 z q) = blockSumSq V c t q := by
  rw [outsAt0_A V c t h0]; dsimp only
  refine (congrFun (out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)) (ix2 z q)).trans ?_
  refine (Pay.k0_pay5_apply (aggBlk V c t) (xBlk V c t) (wlBlk V c t) (wrBlk V c t) (bBlk V c t) (k0_pay2 (F := Ideal)) z q).trans ?_
  rw [Pay.k0_pay2_apply, Ideal.ofBits_zero_f32, zero_add]
  exact Finset.sum_congr rfl fun r _ => by rw [pay3_block V c t r q]

/-- At a later row block it holds what the block before left plus this block's column sums of squares. -/
theorem outs7_B (c : Dev nD) (t : Fin cfg0.N) (h0 : ¬t.val % 5 = 0) (z : Fin 1) (q : Fin 128) :
    (outsAt0 V c t.val t.isLt).2.2 (ix2 z q) = (outsAt0 V c (t.val - 1) (Nat.lt_of_le_of_lt (Nat.sub_le _ _) t.isLt)).2.2 (ix2 z q) + blockSumSq V c t q := by
  rw [outsAt0_B V c t h0]; dsimp only
  refine (congrFun (out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2) (ix2 z q)).trans ?_
  refine (Pay.k0_pay5_apply (aggBlk V c t) (xBlk V c t) (wlBlk V c t) (wrBlk V c t) (bBlk V c t) (outsAt0 V c (t.val - 1) (Nat.lt_of_le_of_lt (Nat.sub_le _ _) t.isLt)).2.2 z q).trans ?_
  exact congrArg (_ + ·) (Finset.sum_congr rfl fun r _ => by rw [pay3_block V c t r q])

/-- The sum of the first n + 1 of N terms, added first to last. -/
def upTo {N : ℕ} (f : Fin N → EReal) : (n : ℕ) → n < N → EReal
  | 0, h => f ⟨0, h⟩
  | n + 1, h => upTo f n (Nat.lt_of_succ_lt h) + f ⟨n + 1, h⟩

theorem upTo_eq_sum {N : ℕ} (f : Fin N → EReal) :
    ∀ (n : ℕ) (h : n < N), upTo f n h = ∑ t : Fin (n + 1), f ⟨t.val, Nat.lt_of_lt_of_le t.isLt h⟩
  | 0, h => by
    rw [Fin.sum_univ_castSucc, Finset.univ_eq_empty, Finset.sum_empty, zero_add]
    rfl
  | n + 1, h => by
    rw [Fin.sum_univ_castSucc]
    show upTo f n _ + f ⟨n + 1, h⟩ = _
    rw [upTo_eq_sum f n (Nat.lt_of_succ_lt h)]
    rfl

/-- THE RUNNING COLUMN SUMS: after point n the second result buffer holds the sums of the first n + 1 row blocks. -/
theorem outs6 (c : Dev nD) (z : Fin 1) (q : Fin 128) :
    ∀ (n : ℕ) (h : n < cfg0.N), (outsAt0 V c n h).2.1 (ix2 z q) = upTo (fun t => blockSum V c t q) n h
  | 0, h => outs6_A V c ⟨0, h⟩ rfl z q
  | n + 1, h => by
    have hN : cfg0.N = 5 := N_0
    have hB : ¬(⟨n + 1, h⟩ : Fin cfg0.N).val % 5 = 0 := by dsimp only; omega
    refine (outs6_B V c ⟨n + 1, h⟩ hB z q).trans ?_
    show (outsAt0 V c n _).2.1 (ix2 z q) + _ = upTo _ n _ + _
    rw [outs6 c z q n]

/-- THE RUNNING COLUMN SUMS OF SQUARES, likewise. -/
theorem outs7 (c : Dev nD) (z : Fin 1) (q : Fin 128) :
    ∀ (n : ℕ) (h : n < cfg0.N), (outsAt0 V c n h).2.2 (ix2 z q) = upTo (fun t => blockSumSq V c t q) n h
  | 0, h => outs7_A V c ⟨0, h⟩ rfl z q
  | n + 1, h => by
    have hN : cfg0.N = 5 := N_0
    have hB : ¬(⟨n + 1, h⟩ : Fin cfg0.N).val % 5 = 0 := by dsimp only; omega
    refine (outs7_B V c ⟨n + 1, h⟩ hB z q).trans ?_
    show (outsAt0 V c n _).2.2 (ix2 z q) + _ = upTo _ n _ + _
    rw [outs7 c z q n]

/-! ## From the blocks to the three result arrays -/

/-- A row-block buffer whose entry (p, q) is entry (10000 t + p, q) of the layer is, written back at point t, block t
    of the layer. -/
theorem cut5_eq (c : Dev nD) (t : Fin cfg0.N) (X : Vec Ideal S10000x128 .f32)
    (hX : ∀ (p : Fin 10000) (q : Fin 128), X (ix2 p q) = layer1 V c (ix2 (row t p) q)) :
    (cfg0.win 5).cut (grid0.coords t) X = ((cfg0.win 5).blk t).view.read (Elt Ideal) (layer1 V c) := by
  obtain ⟨-, -, -, -, -, -, -, -, -, -, e0, e1, -⟩ := idx_facts t
  funext j
  have hj0 : (j 0).val < 10000 := (j 0).isLt
  have hj1 : (j 1).val < 128 := (j 1).isLt
  rw [View.read_apply]
  show X ((cfg0.win 5).xinj (grid0.coords t) j) = layer1 V c (((cfg0.win 5).blk t).view.emb j)
  have e : (cfg0.win 5).xinj (grid0.coords t) j = ix2 (⟨(j 0).val, hj0⟩ : Fin 10000) (⟨(j 1).val, hj1⟩ : Fin 128) := by
    funext a; apply Fin.ext
    match a with
    | ⟨0, _⟩ => rfl
    | ⟨1, _⟩ => rfl
  refine (congrArg X e).trans ((hX _ _).trans ?_)
  congr 1
  funext a; apply Fin.ext
  match a with
  | ⟨0, _⟩ => show 10000 * t.val + (j 0).val = win0_5.index t (0 : Fin 2) * 10000 + 1 * (j 0).val; omega
  | ⟨1, _⟩ => show (j 1).val = win0_5.index t (1 : Fin 2) * 128 + 1 * (j 1).val; omega

/-- WHAT POINT t WRITES BACK to the first result array is block t of the layer of the entry arrays. -/
theorem flushed5_eq (c : Dev nD) (t : Fin cfg0.N) :
    (dat0 (F := Ideal) V c).flushed 5 t = ((cfg0.win 5).blk t).view.read (Elt Ideal) (layer1 V c) := by
  show (cfg0.win 5).cut (grid0.coords t) ((dat0 (F := Ideal) V c).after 5 t) = _
  rw [after0_5 V c t, outs5 V c t]
  exact cut5_eq V c t _ (fun p q => pay3_block V c t p q)

/-- An index of the first result array is in point t's block iff each coordinate is in the block's range. -/
theorem mem_blk5 (t : Fin cfg0.N) (i : S50000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v29_0).slice (win0_5.rect t)).set ↔ _
  rw [View.set_slice_whole, Rect.mem_set_unit]
  exact Iff.rfl

/-- THE FIRST LAYER'S REGION, the layer itself: the first result array ends at the layer's function of the entry arrays
    (row r is written back by point r / 10000). -/
theorem final0_5 (c : Dev nD) : (dat0 (F := Ideal) V c).arrAt 5 cfg0.N = layer1 V c :=
  (dat0 (F := Ideal) V c).arrAt_eq_of_cover 5 (layer1 V c) (fun t _ => flushed5_eq V c t) fun i => by
    have hN : cfg0.N = 5 := N_0
    have hi0 : (i 0).val < 50000 := (i 0).isLt
    have hi1 : (i 1).val < 128 := (i 1).isLt
    have ht : (i 0).val / 10000 < cfg0.N := by omega
    obtain ⟨-, -, -, -, -, -, -, -, -, -, e0, e1, -⟩ := idx_facts ⟨(i 0).val / 10000, ht⟩
    refine ⟨⟨(i 0).val / 10000, ht⟩, flush0_5 _, ?_⟩
    rw [mem_blk5]
    intro a
    match a with
    | ⟨0, _⟩ =>
      show win0_5.index ⟨(i 0).val / 10000, ht⟩ (0 : Fin 2) * 10000 ≤ (i 0).val
        ∧ (i 0).val < win0_5.index ⟨(i 0).val / 10000, ht⟩ (0 : Fin 2) * 10000 + 10000
      rw [e0]; dsimp only; omega
    | ⟨1, _⟩ =>
      show win0_5.index ⟨(i 0).val / 10000, ht⟩ (1 : Fin 2) * 128 ≤ (i 1).val
        ∧ (i 1).val < win0_5.index ⟨(i 0).val / 10000, ht⟩ (1 : Fin 2) * 128 + 128
      omega

/-- An index of the one-row array is in the one block of result window 6 iff each coordinate is in the block's range. -/
theorem mem_blk6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v29_1).slice (win0_6.rect t)).set ↔ _
  rw [View.set_slice_whole, Rect.mem_set_unit]
  exact Iff.rfl

/-- A one-row buffer that agrees entry by entry with a one-row array is, written back, that array's one block. -/
theorem cut6_eq (t : Fin cfg0.N) (X : Vec Ideal S1x128 .f32) (G : FVec Ideal S1x128 .f32)
    (hX : ∀ (z : Fin 1) (q : Fin 128), X (ix2 z q) = G (ix2 z q)) :
    (cfg0.win 6).cut (grid0.coords t) X = ((cfg0.win 6).blk t).view.read (Elt Ideal) G := by
  obtain ⟨-, -, -, -, -, -, -, -, -, -, -, -, e0, e1, -⟩ := idx_facts t
  funext j
  have hj0 : (j 0).val < 1 := (j 0).isLt
  have hj1 : (j 1).val < 128 := (j 1).isLt
  rw [View.read_apply]
  show X ((cfg0.win 6).xinj (grid0.coords t) j) = G (((cfg0.win 6).blk t).view.emb j)
  have e : (cfg0.win 6).xinj (grid0.coords t) j = ix2 (⟨(j 0).val, hj0⟩ : Fin 1) (⟨(j 1).val, hj1⟩ : Fin 128) := by
    funext a; apply Fin.ext
    match a with
    | ⟨0, _⟩ => rfl
    | ⟨1, _⟩ => rfl
  refine (congrArg X e).trans ((hX _ _).trans ?_)
  congr 1
  funext a; apply Fin.ext
  match a with
  | ⟨0, _⟩ => show (j 0).val = win0_6.index t (0 : Fin 2) * 1 + 1 * (j 0).val; omega
  | ⟨1, _⟩ => show (j 1).val = win0_6.index t (1 : Fin 2) * 128 + 1 * (j 1).val; omega

/-- WHAT THE ONE WRITE-BACK of the second result array writes, after the last row block, is the column sums of the layer over all 50000 rows: the five row blocks' sums, re-indexed as one sum. -/
theorem flushed6_eq (c : Dev nD) (t : Fin cfg0.N) (hf : (cfg0.win 6).flush t = true) :
    (dat0 (F := Ideal) V c).flushed 6 t = ((cfg0.win 6).blk t).view.read (Elt Ideal) (colsum (layer1 V c)) := by
  have hN : cfg0.N = 5 := N_0
  have h4 : t.val = 4 := by have := (flush0_6 t).mp hf; have := t.isLt; omega
  show (cfg0.win 6).cut (grid0.coords t) ((dat0 (F := Ideal) V c).after 6 t) = _
  rw [after0_6 V c t]
  refine cut6_eq t _ _ (fun z q => ?_)
  rw [colsum_ix2]
  obtain ⟨n, hn⟩ := t
  dsimp only at h4 ⊢
  subst h4
  rw [outs6 V c z q 4 hn, upTo_eq_sum]
  exact Cert.LibSumBlocks.sum_blocks (A := 5) (B := 10000) (N := 50000) (by decide)
    (fun n => layer1 V c (ix2 n q))

/-- The second result array, written back once after the last row block, ends at the column sums of the layer over all 50000 rows: the five row blocks' sums accumulated from zero. -/
theorem final0_6 (c : Dev nD) : (dat0 (F := Ideal) V c).arrAt 6 cfg0.N = colsum (layer1 V c) :=
  (dat0 (F := Ideal) V c).arrAt_eq_of_cover 6 (colsum (layer1 V c)) (flushed6_eq V c) fun i => by
    obtain ⟨-, -, -, -, -, -, -, -, -, -, -, -, e0, e1, -⟩ := idx_facts t0_4
    refine ⟨t0_4, (flush0_6 t0_4).mpr rfl, ?_⟩
    rw [mem_blk6]
    intro a
    have hi0 : (i 0).val < 1 := (i 0).isLt
    have hi1 : (i 1).val < 128 := (i 1).isLt
    match a with
    | ⟨0, _⟩ => show win0_6.index t0_4 (0 : Fin 2) * 1 ≤ (i 0).val ∧ (i 0).val < win0_6.index t0_4 (0 : Fin 2) * 1 + 1; omega
    | ⟨1, _⟩ => show win0_6.index t0_4 (1 : Fin 2) * 128 ≤ (i 1).val ∧ (i 1).val < win0_6.index t0_4 (1 : Fin 2) * 128 + 128; omega

/-- An index of the one-row array is in the one block of result window 7 iff each coordinate is in the block's range. -/
theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v29_2).slice (win0_7.rect t)).set ↔ _
  rw [View.set_slice_whole, Rect.mem_set_unit]
  exact Iff.rfl

/-- A one-row buffer that agrees entry by entry with a one-row array is, written back, that array's one block. -/
theorem cut7_eq (t : Fin cfg0.N) (X : Vec Ideal S1x128 .f32) (G : FVec Ideal S1x128 .f32)
    (hX : ∀ (z : Fin 1) (q : Fin 128), X (ix2 z q) = G (ix2 z q)) :
    (cfg0.win 7).cut (grid0.coords t) X = ((cfg0.win 7).blk t).view.read (Elt Ideal) G := by
  obtain ⟨-, -, -, -, -, -, -, -, -, -, -, -, -, -, e0, e1⟩ := idx_facts t
  funext j
  have hj0 : (j 0).val < 1 := (j 0).isLt
  have hj1 : (j 1).val < 128 := (j 1).isLt
  rw [View.read_apply]
  show X ((cfg0.win 7).xinj (grid0.coords t) j) = G (((cfg0.win 7).blk t).view.emb j)
  have e : (cfg0.win 7).xinj (grid0.coords t) j = ix2 (⟨(j 0).val, hj0⟩ : Fin 1) (⟨(j 1).val, hj1⟩ : Fin 128) := by
    funext a; apply Fin.ext
    match a with
    | ⟨0, _⟩ => rfl
    | ⟨1, _⟩ => rfl
  refine (congrArg X e).trans ((hX _ _).trans ?_)
  congr 1
  funext a; apply Fin.ext
  match a with
  | ⟨0, _⟩ => show (j 0).val = win0_7.index t (0 : Fin 2) * 1 + 1 * (j 0).val; omega
  | ⟨1, _⟩ => show (j 1).val = win0_7.index t (1 : Fin 2) * 128 + 1 * (j 1).val; omega

/-- WHAT THE ONE WRITE-BACK of the third result array writes is the column sums of the layer's squares over all 50000 rows. -/
theorem flushed7_eq (c : Dev nD) (t : Fin cfg0.N) (hf : (cfg0.win 7).flush t = true) :
    (dat0 (F := Ideal) V c).flushed 7 t = ((cfg0.win 7).blk t).view.read (Elt Ideal) (colsumsq (layer1 V c)) := by
  have hN : cfg0.N = 5 := N_0
  have h4 : t.val = 4 := by have := (flush0_7 t).mp hf; have := t.isLt; omega
  show (cfg0.win 7).cut (grid0.coords t) ((dat0 (F := Ideal) V c).after 7 t) = _
  rw [after0_7 V c t]
  refine cut7_eq t _ _ (fun z q => ?_)
  rw [colsumsq_ix2]
  obtain ⟨n, hn⟩ := t
  dsimp only at h4 ⊢
  subst h4
  rw [outs7 V c z q 4 hn, upTo_eq_sum]
  exact Cert.LibSumBlocks.sum_blocks (A := 5) (B := 10000) (N := 50000) (by decide)
    (fun n => layer1 V c (ix2 n q) * layer1 V c (ix2 n q))

/-- The third result array likewise ends at the column sums of the layer's squares. -/
theorem final0_7 (c : Dev nD) : (dat0 (F := Ideal) V c).arrAt 7 cfg0.N = colsumsq (layer1 V c) :=
  (dat0 (F := Ideal) V c).arrAt_eq_of_cover 7 (colsumsq (layer1 V c)) (flushed7_eq V c) fun i => by
    obtain ⟨-, -, -, -, -, -, -, -, -, -, -, -, -, -, e0, e1⟩ := idx_facts t0_4
    refine ⟨t0_4, (flush0_7 t0_4).mpr rfl, ?_⟩
    rw [mem_blk7]
    intro a
    have hi0 : (i 0).val < 1 := (i 0).isLt
    have hi1 : (i 1).val < 128 := (i 1).isLt
    match a with
    | ⟨0, _⟩ => show win0_7.index t0_4 (0 : Fin 2) * 1 ≤ (i 0).val ∧ (i 0).val < win0_7.index t0_4 (0 : Fin 2) * 1 + 1; omega
    | ⟨1, _⟩ => show win0_7.index t0_4 (1 : Fin 2) * 128 ≤ (i 1).val ∧ (i 1).val < win0_7.index t0_4 (1 : Fin 2) * 128 + 128; omega

end Cert.KernelIdeal.Region0

end
-- ==== Proof.KR1.lean ====
import proofs.«160027_j3092376453137_1_alg».proof.Proof.Gen.KernelIdeal.Frame
import proofs.«160027_j3092376453137_1_alg».proof.Proof.Spec
import proofs.«160027_j3092376453137_1_alg».proof.Proof.KPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Region1

open Cert.KernelIdeal Cert.KernelIdeal.Gen Cert.Spec

-- the contents of the core's buffers when the region is entered
variable (V : (c : Dev nD) → (b : Ref sig .tc) → Buf (Elt Ideal) ((c : Thread nD τ).loc b))

/-- The zero offsets of a store or load that covers its whole buffer. -/
theorem hz : (![0, 0] : Fin 2 → Nat) = fun _ => 0 := funext fun a => by fin_cases a <;> rfl

/-- The index maps over the five grid points: the entry array's window and the result's window sit at row block
    `t`, column block `0`; the four one-row windows sit at block `(0, 0)` at every point. -/
theorem idx_facts : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- ONE ENTRY. When the row block `x0` holds rows `10000·k …` of `h` and the one-row blocks hold the one-row arrays,
    the body's stored value at `(p, q)` is the normalised entry of row `10000·k + p`, column `q`. -/
theorem entry_eq (h : FVec Ideal S50000x128 .f32) (mu var g b : FVec Ideal S1x128 .f32)
    (x0 : Vec Ideal S10000x128 .f32) (x1 x2 x3 x4 : Vec Ideal S1x128 .f32)
    (p : Fin 10000) (q : Fin 128) (r : Fin 50000)
    (h0 : x0 (ix2 p q) = h (ix2 r q))
    (h1 : x1 (ix2 0 q) = mu (ix2 0 q)) (h2 : x2 (ix2 0 q) = var (ix2 0 q))
    (h3 : x3 (ix2 0 q) = g (ix2 0 q)) (h4 : x4 (ix2 0 q) = b (ix2 0 q)) :
    k1_pay1 (F := Ideal) x0 x2 x1 x3 x4 (ix2 p q) = bnrelu h mu var g b (ix2 r q) := by
  rw [Pay.k1_pay1_apply, bnrelu_ix2]
  unfold bnreluAt
  rw [h0, h1, h2, h3, h4]

/-- The entry array's row block at point `t`: entry `(p, q)` is the array's at row `10000·t + p`. -/
theorem hblk_apply (c : Dev nD) (t : Fin cfg1.N) (p : Fin 10000) (q : Fin 128) (r : Fin 50000)
    (hr : r.val = 10000 * t.val + p.val) :
    (iblk1 (F := Ideal) V c 0 t : Vec Ideal S10000x128 .f32) (ix2 p q)
      = (V c main_v29_0 : FVec Ideal S50000x128 .f32) (ix2 r q) := by
  obtain ⟨e0, e1, -⟩ := idx_facts t
  unfold iblk1
  rw [View.read_apply]
  show V c main_v29_0 _ = V c main_v29_0 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 128 + 1 * q.val = q.val; rw [e1]; omega

/-- The mean's block at any point is the one-row array. -/
theorem mublk_apply (c : Dev nD) (t : Fin cfg1.N) (q : Fin 128) :
    (iblk1 (F := Ideal) V c 1 t : Vec Ideal S1x128 .f32) (ix2 0 q)
      = (V c main_v31 : FVec Ideal S1x128 .f32) (ix2 0 q) := by
  obtain ⟨-, -, e0, e1, -⟩ := idx_facts t
  unfold iblk1
  rw [View.read_apply]
  show V c main_v31 _ = V c main_v31 _
  congr 1
  funext a
  apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

/-- The variance's block at any point is the one-row array. -/
theorem varblk_apply (c : Dev nD) (t : Fin cfg1.N) (q : Fin 128) :
    (iblk1 (F := Ideal) V c 2 t : Vec Ideal S1x128 .f32) (ix2 0 q)
      = (V c main_v35 : FVec Ideal S1x128 .f32) (ix2 0 q) := by
  obtain ⟨-, -, -, -, e0, e1, -⟩ := idx_facts t
  unfold iblk1
  rw [View.read_apply]
  show V c main_v35 _ = V c main_v35 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

/-- The scale's block at any point is the one-row array. -/
theorem gblk_apply (c : Dev nD) (t : Fin cfg1.N) (q : Fin 128) :
    (iblk1 (F := Ideal) V c 3 t : Vec Ideal S1x128 .f32) (ix2 0 q)
      = (V c main_v36 : FVec Ideal S1x128 .f32) (ix2 0 q) := by
  obtain ⟨-, -, -, -, -, -, e0, e1, -⟩ := idx_facts t
  unfold iblk1
  rw [View.read_apply]
  show V c main_v36 _ = V c main_v36 _
  congr 1
  funext a
  apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

/-- The shift's block at any point is the one-row array. -/
theorem bblk_apply (c : Dev nD) (t : Fin cfg1.N) (q : Fin 128) :
    (iblk1 (F := Ideal) V c 4 t : Vec Ideal S1x128 .f32) (ix2 0 q)
      = (V c main_v37 : FVec Ideal S1x128 .f32) (ix2 0 q) := by
  obtain ⟨-, -, -, -, -, -, -, -, e0, e1, -⟩ := idx_facts t
  unfold iblk1
  rw [View.read_apply]
  show V c main_v37 _ = V c main_v37 _
  congr 1
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- WHAT POINT `t` WRITES BACK is block `t` of the normalised array. -/
theorem flushed_eq (c : Dev nD) (t : Fin cfg1.N) :
    (dat1 (F := Ideal) V c).flushed 5 t = ((cfg1.win 5).blk t).view.read (Elt Ideal)
      (bnrelu (V c main_v29_0) (V c main_v31) (V c main_v35) (V c main_v36) (V c main_v37)) := by
  show (cfg1.win 5).cut (grid1.coords t) ((dat1 (F := Ideal) V c).after 5 t) = _
  rw [after1_5]
  unfold out1_5
  rw [View.canon_unit_zero hz]
  simp only [View.ld_unit_zero (S := S10000x128) hz, View.ld_unit_zero (S := S1x128) hz]
  obtain ⟨-, -, -, -, -, -, -, -, -, -, e0, e1⟩ := idx_facts t
  have ht : t.val < 5 := lt_of_lt_of_eq t.isLt N_1
  funext j
  have hj0 : (j 0).val < 10000 := (j 0).isLt
  have hj1 : (j 1).val < 128 := (j 1).isLt
  have ej : (win1 5).xinj (grid1.coords t) j = ix2 (⟨(j 0).val, hj0⟩ : Fin 10000) (⟨(j 1).val, hj1⟩ : Fin 128) := by
    funext a
    match a with
    | ⟨0, _⟩ => rfl
    | ⟨1, _⟩ => rfl
  have er : ((View.whole main_v38).slice ((win1 5).rect t)).emb j
      = ix2 (⟨10000 * t.val + (j 0).val, by omega⟩ : Fin 50000) (⟨(j 1).val, hj1⟩ : Fin 128) := by
    funext a
    apply Fin.ext
    match a with
    | ⟨0, _⟩ => show win1_5.index t (0 : Fin 2) * 10000 + 1 * (j 0).val = 10000 * t.val + (j 0).val; rw [e0]; omega
    | ⟨1, _⟩ => show win1_5.index t (1 : Fin 2) * 128 + 1 * (j 1).val = (j 1).val; rw [e1]; omega
  rw [View.read_apply, er]
  refine (congrArg (k1_pay1 (F := Ideal) (iblk1 V c 0 t) (iblk1 V c 2 t) (iblk1 V c 1 t) (iblk1 V c 3 t) (iblk1 V c 4 t)) ej).trans ?_
  exact entry_eq _ _ _ _ _ _ _ _ _ _ _ _ _
    (hblk_apply V c t _ _ _ rfl) (mublk_apply V c t _) (varblk_apply V c t _) (gblk_apply V c t _) (bblk_apply V c t _)

/-- An index of the result array is in point `t`'s block iff each coordinate is in the block's range on its axis. -/
theorem mem_blk (t : Fin cfg1.N) (i : S50000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v38).slice (win1_5.rect t)).set ↔ _
  rw [View.set_slice_whole, Rect.mem_set_unit]
  exact Iff.rfl

/-- Row `r` is written back by point `r / 10000`. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 10000, by rw [show cfg1.N = 5 from N_1]; omega⟩
  obtain ⟨-, -, -, -, -, -, -, -, -, -, e0, e1⟩ := idx_facts t
  have tv : t.val = (i 0).val / 10000 := rfl
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; rw [e0, tv]; omega
  | ⟨1, _⟩ => show win1_5.index t (1 : Fin 2) * 128 ≤ (i 1).val ∧ (i 1).val < win1_5.index t (1 : Fin 2) * 128 + 128; rw [e1]; omega

/-- THE NORMALISATION REGION. Its result array ends at the normalised, scaled, shifted and clipped entries of the array
    it was entered with, the column mean and variance read from the two one-row arrays. -/
theorem final1 (c : Dev nD) :
    (dat1 (F := Ideal) V c).arrAt 5 cfg1.N
      = bnrelu (V c main_v29_0) (V c main_v31) (V c main_v35) (V c main_v36) (V c main_v37) :=
  (dat1 (F := Ideal) V c).arrAt_eq_of_cover 5 _ (fun t _ => flushed_eq V c t) covered

end Cert.KernelIdeal.Region1

end
-- ==== Proof.KR2.lean ====
import proofs.«160027_j3092376453137_1_alg».proof.Proof.Gen.KernelIdeal.Frame
import proofs.«160027_j3092376453137_1_alg».proof.Proof.Spec
import proofs.«160027_j3092376453137_1_alg».proof.Proof.KPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Region2

open Cert.KernelIdeal Cert.KernelIdeal.Gen Cert.Spec

-- the contents of the core's buffers when the region is entered
variable (V : (c : Dev nD) → (b : Ref sig .tc) → Buf (Elt Ideal) ((c : Thread nD τ).loc b))

/-- The zero offset of a whole-block rectangle is the constant function `0`. -/
theorem zero_offset : (![0, 0] : Fin 2 → Nat) = fun _ => 0 := funext fun a => by fin_cases a <;> rfl

/-- The printed index maps, decided over the five grid points: the two feature windows and the result window sit at
    row block `t`, column block `0`; the weights and the bias always at block `(0, 0)`. -/
theorem block_positions : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- One entry of a row block. If row `p` of the two feature blocks is row `P` of the feature arrays and the weight and
    bias blocks are the whole arrays, the stored value at `(p, q)` is the layer at node `P`, column `q`. -/
theorem entry_eq (a h : FVec Ideal S50000x128 .f32) (wl : FVec Ideal S128x64 .f32) (b : FVec Ideal S1x64 .f32)
    (wr : FVec Ideal S128x64 .f32)
    (x0 x1 : Vec Ideal S10000x128 .f32) (x2 x4 : Vec Ideal S128x64 .f32) (x3 : Vec Ideal S1x64 .f32)
    (P : Fin 50000) (p : Fin 10000) (q : Fin 64)
    (h0 : ∀ k : Fin 128, x0 (ix2 p k) = a (ix2 P k))
    (h1 : ∀ k : Fin 128, x1 (ix2 p k) = h (ix2 P k))
    (h2 : ∀ k : Fin 128, x2 (ix2 k q) = wl (ix2 k q))
    (h3 : x3 (ix2 0 q) = b (ix2 0 q))
    (h4 : ∀ k : Fin 128, x4 (ix2 k q) = wr (ix2 k q)) :
    k2_pay1 (F := Ideal) x0 x1 x2 x4 x3 (ix2 p q) = sage2 a h wl b wr (ix2 P q) := by
  rw [Pay.k2_pay1_apply, sage2_ix2]
  unfold sage2At
  rw [h3]
  congr 1
  congr 1
  · exact Finset.sum_congr rfl fun k _ => by rw [h0, h2]
  · exact Finset.sum_congr rfl fun k _ => by rw [h1, h4]

/-- The aggregate window's block at point `t` is rows `10000·t … 10000·t + 9999` of its array. -/
theorem agg_block (c : Dev nD) (t : Fin cfg2.N) (x : S10000x128.Idx) (k : S50000x128.Idx)
    (hk0 : (k 0).val = t.val * 10000 + (x 0).val) (hk1 : (k 1).val = (x 1).val) :
    (iblk2 V c 0 t : Vec Ideal S10000x128 .f32) x = (V c main_v51 : S50000x128.Idx → EReal) k := by
  obtain ⟨e00, e01, -⟩ := block_positions t
  unfold iblk2
  rw [View.read_apply]
  show V c main_v51 _ = V c main_v51 _
  congr 1
  funext a
  apply Fin.ext
  match a with
  | ⟨0, _⟩ => show win2_0.index t (0 : Fin 2) * 10000 + 1 * (x 0).val = (k 0).val; omega
  | ⟨1, _⟩ => show win2_0.index t (1 : Fin 2) * 128 + 1 * (x 1).val = (k 1).val; omega

/-- The feature window's block at point `t` is the same rows of its array. -/
theorem feat_block (c : Dev nD) (t : Fin cfg2.N) (x : S10000x128.Idx) (k : S50000x128.Idx)
    (hk0 : (k 0).val = t.val * 10000 + (x 0).val) (hk1 : (k 1).val = (x 1).val) :
    (iblk2 V c 1 t : Vec Ideal S10000x128 .f32) x = (V c main_v38 : S50000x128.Idx → EReal) k := by
  obtain ⟨-, -, e10, e11, -⟩ := block_positions t
  unfold iblk2
  rw [View.read_apply]
  show V c main_v38 _ = V c main_v38 _
  congr 1
  funext a
  apply Fin.ext
  match a with
  | ⟨0, _⟩ => show win2_1.index t (0 : Fin 2) * 10000 + 1 * (x 0).val = (k 0).val; omega
  | ⟨1, _⟩ => show win2_1.index t (1 : Fin 2) * 128 + 1 * (x 1).val = (k 1).val; omega

/-- The neighbour weights' block is the whole array at every point. -/
theorem wl_block (c : Dev nD) (t : Fin cfg2.N) (x : S128x64.Idx) :
    (iblk2 V c 2 t : Vec Ideal S128x64 .f32) x = (V c main_arg7 : S128x64.Idx → EReal) x := by
  obtain ⟨-, -, -, -, e20, e21, -⟩ := block_positions t
  unfold iblk2
  rw [View.read_apply]
  show V c main_arg7 _ = V c main_arg7 _
  congr 1
  funext a
  apply Fin.ext
  match a with
  | ⟨0, _⟩ => show win2_2.index t (0 : Fin 2) * 128 + 1 * (x 0).val = (x 0).val; omega
  | ⟨1, _⟩ => show win2_2.index t (1 : Fin 2) * 64 + 1 * (x 1).val = (x 1).val; omega

/-- The bias row's block is the whole array at every point. -/
theorem bias_block (c : Dev nD) (t : Fin cfg2.N) (x : S1x64.Idx) :
    (iblk2 V c 3 t : Vec Ideal S1x64 .f32) x = (V c main_v52 : S1x64.Idx → EReal) x := by
  obtain ⟨-, -, -, -, -, -, e30, e31, -⟩ := block_positions t
  unfold iblk2
  rw [View.read_apply]
  show V c main_v52 _ = V c main_v52 _
  congr 1
  funext a
  apply Fin.ext
  match a with
  | ⟨0, _⟩ => show win2_3.index t (0 : Fin 2) * 1 + 1 * (x 0).val = (x 0).val; omega
  | ⟨1, _⟩ => show win2_3.index t (1 : Fin 2) * 64 + 1 * (x 1).val = (x 1).val; omega

/-- The self weights' block is the whole array at every point. -/
theorem wr_block (c : Dev nD) (t : Fin cfg2.N) (x : S128x64.Idx) :
    (iblk2 V c 4 t : Vec Ideal S128x64 .f32) x = (V c main_arg9 : S128x64.Idx → EReal) x := by
  obtain ⟨-, -, -, -, -, -, -, -, e40, e41, -⟩ := block_positions t
  unfold iblk2
  rw [View.read_apply]
  show V c main_arg9 _ = V c main_arg9 _
  congr 1
  funext a
  apply Fin.ext
  match a with
  | ⟨0, _⟩ => show win2_4.index t (0 : Fin 2) * 128 + 1 * (x 0).val = (x 0).val; omega
  | ⟨1, _⟩ => show win2_4.index t (1 : Fin 2) * 64 + 1 * (x 1).val = (x 1).val; omega

/-- WHAT POINT `t` WRITES BACK is block `t` of the layer's function of the arrays the region was entered with. -/
theorem row_block_written (c : Dev nD) (t : Fin cfg2.N) :
    (dat2 (F := Ideal) V c).flushed 5 t = ((cfg2.win 5).blk t).view.read (Elt Ideal)
      (sage2 (V c main_v51) (V c main_v38) (V c main_arg7) (V c main_v52) (V c main_arg9)) := by
  show (cfg2.win 5).cut (grid2.coords t) ((dat2 V c).after 5 t) = _
  rw [after2_5]
  unfold out2_5
  rw [View.canon_unit_zero zero_offset]
  simp only [View.ld_unit_zero (S := S10000x128) zero_offset, View.ld_unit_zero (S := S128x64) zero_offset, View.ld_unit_zero (S := S1x64) zero_offset]
  have ht : t.val < 5 := lt_of_lt_of_eq t.isLt N_2
  obtain ⟨-, -, -, -, -, -, -, -, -, -, e50, e51⟩ := block_positions t
  have key : ∀ j : S10000x64.Idx,
      k2_pay1 (F := Ideal) (iblk2 V c 0 t) (iblk2 V c 1 t) (iblk2 V c 2 t) (iblk2 V c 4 t) (iblk2 V c 3 t) j
        = sage2 (V c main_v51) (V c main_v38) (V c main_arg7) (V c main_v52) (V c main_arg9)
            (((cfg2.win 5).blk t).view.emb j) := by
    intro j
    obtain ⟨p, q, rfl⟩ : ∃ (p : Fin 10000) (q : Fin 64), j = ix2 p q := ⟨j 0, j 1, eq_ix2 j⟩
    have hP : t.val * 10000 + p.val < 50000 := by have := p.isLt; omega
    have hemb : ((cfg2.win 5).blk t).view.emb (ix2 p q) = ix2 (⟨t.val * 10000 + p.val, hP⟩ : Fin 50000) q := by
      funext a
      apply Fin.ext
      match a with
      | ⟨0, _⟩ => show win2_5.index t (0 : Fin 2) * 10000 + 1 * p.val = t.val * 10000 + p.val; omega
      | ⟨1, _⟩ => show win2_5.index t (1 : Fin 2) * 64 + 1 * q.val = q.val; omega
    rw [hemb]
    exact entry_eq (V c main_v51) (V c main_v38) (V c main_arg7) (V c main_v52) (V c main_arg9)
      (iblk2 V c 0 t) (iblk2 V c 1 t) (iblk2 V c 2 t) (iblk2 V c 4 t) (iblk2 V c 3 t) ⟨t.val * 10000 + p.val, hP⟩ p q
      (fun k => agg_block V c t (ix2 p k) (ix2 ⟨t.val * 10000 + p.val, hP⟩ k) rfl rfl)
      (fun k => feat_block V c t (ix2 p k) (ix2 ⟨t.val * 10000 + p.val, hP⟩ k) rfl rfl)
      (fun k => wl_block V c t (ix2 k q))
      (bias_block V c t (ix2 0 q))
      (fun k => wr_block V c t (ix2 k q))
  funext j
  exact key j

/-- An index of the result array is in point `t`'s block iff each coordinate is in the block's range on its axis. -/
theorem mem_row_block (t : Fin cfg2.N) (i : S50000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v53).slice (win2_5.rect t)).set ↔ _
  rw [View.set_slice_whole, Rect.mem_set_unit]
  exact Iff.rfl

/-- Every row is some point's: row `r` lies in the block of point `r / 10000`. -/
theorem rows_covered (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ : ∃ t : Fin cfg2.N, t.val = (i 0).val / 10000 :=
    ⟨⟨(i 0).val / 10000, lt_of_lt_of_eq (by omega : (i 0).val / 10000 < 5) N_2.symm⟩, rfl⟩
  obtain ⟨-, -, -, -, -, -, -, -, -, -, e50, e51⟩ := block_positions t
  refine ⟨t, flush2_5 t, ?_⟩
  rw [mem_row_block]
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 64 ≤ (i 1).val ∧ (i 1).val < win2_5.index t (1 : Fin 2) * 64 + 64
    omega

/-- THE SECOND LAYER'S REGION. Its result array ends, row block by row block, at the layer's function of the arrays the
    region was entered with: entry `(p, q)` is `(∑ₖ a[p,k]·wl[k,q] + ∑ₖ h[p,k]·wr[k,q]) + b[0,q]`. -/
theorem final2 (c : Dev nD) :
    (dat2 (F := Ideal) V c).arrAt 5 cfg2.N
      = sage2 (V c main_v51) (V c main_v38) (V c main_arg7) (V c main_v52) (V c main_arg9) :=
  (dat2 (F := Ideal) V c).arrAt_eq_of_cover 5
    (sage2 (V c main_v51) (V c main_v38) (V c main_arg7) (V c main_v52) (V c main_arg9))
    (fun t _ => row_block_written V c t) rows_covered

end Cert.KernelIdeal.Region2

end
-- ==== Proof.KValue.lean ====
import proofs.«160027_j3092376453137_1_alg».proof.Proof.KHost
import proofs.«160027_j3092376453137_1_alg».proof.Proof.KR0
import proofs.«160027_j3092376453137_1_alg».proof.Proof.KR1
import proofs.«160027_j3092376453137_1_alg».proof.Proof.KR2

/-!
# The kernel program's result as one function of its arguments

The three regions' values chained through the host stretches between them.
-/

set_option maxRecDepth 16384

noncomputable section

open Idealize.ShloMosaic Idealize.ShloMosaic.TcCoe Idealize.SL.Sem

namespace Cert.KernelIdeal.Host

open Cert.KernelIdeal Cert.KernelIdeal.Gen Cert.Spec

variable (m : (ℓ : Loc nD τ sig) → Buf (Elt Ideal) ℓ) (ρ : Dev nD → PrngReg)

/-- After the last region the result buffer holds the encoder as the kernel's program computes it, of the arguments as
    launched. -/
theorem kernel_value (c : Dev nD) :
    W8 m ρ c (Proc.devRef .tc main_v53)
      = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [W8_v53, Region2.final2 (V7 m ρ) c, V7_v51, V7_v38, V7_arg7, V7_v52, V7_arg9,
    Region1.final1 (V5 m ρ) c, V5_v29_0, V5_v31, V5_v35, V5_v36, V5_v37,
    Region0.final0_5 (V3 m ρ) c, Region0.final0_6 (V3 m ρ) c, Region0.final0_7 (V3 m ρ) c]
  unfold Region0.layer1
  rw [V3_v27, V3_arg0, V3_arg2, V3_v28, V3_arg4]
  rfl

end Cert.KernelIdeal.Host

end
-- ==== Proof.BridgeLayer.lean ====
import proofs.«160027_j3092376453137_1_alg».proof.Proof.SpecAgg
import Idealize.ShloMosaic.Lib.Pipeline.Value
import Idealize.ShloMosaic.Lib.ValueLayout
import Idealize.ShloMosaic.PureOps.Ideal.Laws

/-!
# The two SAGE layers against the reference's products

The reference computes `(a · Wl + b) + h · Wr` with two host matrix products; the kernel's program `(a · Wl + h · Wr) + b`.
Entry by entry both are the same three extended reals added in another order, and addition of extended reals is
commutative and associative.
-/

set_option maxRecDepth 16384

noncomputable section

open Idealize.ShloMosaic Idealize.ShloMosaic.ValueIdx
open scoped BigOperators

namespace Cert.Bridge

open Cert.ReferenceIdeal Cert.ReferenceIdeal.ReadP Cert.Spec

/-- A vector of 128 kept as a one-row array reads, at `(z, q)`, the vector at `q`. -/
theorem row128_ix2 (v : FVec Ideal S128 .f32) (z : Fin 1) (q : Fin 128) : row128 v (ix2 z q) = v (ix1 q) := by
  unfold row128
  exact shapeCast_a_1a_apply v _ z q

/-- A vector of 64 kept as a one-row array reads, at `(z, q)`, the vector at `q`. -/
theorem row64_ix2 (v : FVec Ideal S64 .f32) (z : Fin 1) (q : Fin 64) : row64 v (ix2 z q) = v (ix1 q) := by
  unfold row64
  exact shapeCast_a_1a_apply v _ z q

/-- Three extended reals added in the reference's order and in the kernel's: addition is commutative and associative. -/
theorem add_bias_comm (A X b : EReal) : (A + b) + X = (A + X) + b := add_right_comm A b X

/-- The first layer as the kernel's program computes it is the reference's stage `%33`. -/
theorem h1K_ref (x0 : FVec Ideal S50000x64 .f32) (x1 : IVec S2x800000 32) (x2 : FVec Ideal S64x128 .f32) (x3 : FVec Ideal S128 .f32) (x4 : FVec Ideal S64x128 .f32) :
    h1K x0 x1 x2 x3 x4 = val_main_v33 (F := Ideal) x0 x1 x2 x3 x4 := by
  funext i
  obtain ⟨p, q, rfl⟩ : ∃ (p : Fin 50000) (q : Fin 128), i = ix2 p q := ⟨i 0, i 1, eq_ix2 i⟩
  show sage1At (val_main_v27 (F := Ideal) x0 x1) x0 x2 (row128 x3) x4 p q = _
  unfold sage1At
  rw [val_main_v33_apply, val_main_v31_apply, val_main_v28_apply, val_main_v30_apply, val_main_v29_apply, val_main_v32_apply,
    row128_ix2]
  generalize val_main_v27 (F := Ideal) x0 x1 = a
  -- the products' operand indices and the bias index, by coordinates
  have el : ∀ k : Fin 64, lidx_main_v28 (ix2 p q) k = ix2 p k := fun k =>
    funext fun c => Fin.ext (by match c with | ⟨0, _⟩ => rfl | ⟨1, _⟩ => rfl)
  have er : ∀ k : Fin 64, ridx_main_v28 (ix2 p q) k = ix2 k q := fun k =>
    funext fun c => Fin.ext (by match c with | ⟨0, _⟩ => rfl | ⟨1, _⟩ => rfl)
  have el' : ∀ k : Fin 64, lidx_main_v32 (ix2 p q) k = ix2 p k := fun k =>
    funext fun c => Fin.ext (by match c with | ⟨0, _⟩ => rfl | ⟨1, _⟩ => rfl)
  have er' : ∀ k : Fin 64, ridx_main_v32 (ix2 p q) k = ix2 k q := fun k =>
    funext fun c => Fin.ext (by match c with | ⟨0, _⟩ => rfl | ⟨1, _⟩ => rfl)
  have eb : idx_main_v29 (idx_main_v30 (ix2 p q)) = ix1 q :=
    funext fun c => Fin.ext (by match c with | ⟨0, _⟩ => rfl)
  simp only [el, er, el', er', eb, Ideal.addf_def]
  exact (add_bias_comm _ _ _).symm

/-- The second layer of the reference's own neighbourhood mean `%72` and normalised array `%59` is its result `%78`. -/
theorem sage2_ref (x0 : FVec Ideal S50000x64 .f32) (x1 : IVec S2x800000 32) (x2 : FVec Ideal S64x128 .f32) (x3 : FVec Ideal S128 .f32) (x4 : FVec Ideal S64x128 .f32) (x5 x6 : FVec Ideal S128 .f32) (x7 : FVec Ideal S128x64 .f32) (x8 : FVec Ideal S64 .f32) (x9 : FVec Ideal S128x64 .f32) :
    sage2 (val_main_v72 (F := Ideal) x0 x1 x2 x3 x4 x5 x6) (val_main_v59 (F := Ideal) x0 x1 x2 x3 x4 x5 x6) x7 (row64 x8) x9
      = val_main_v78 (F := Ideal) x0 x1 x2 x3 x4 x5 x6 x7 x8 x9 := by
  funext i
  obtain ⟨p, q, rfl⟩ : ∃ (p : Fin 50000) (q : Fin 64), i = ix2 p q := ⟨i 0, i 1, eq_ix2 i⟩
  show sage2At (val_main_v72 (F := Ideal) x0 x1 x2 x3 x4 x5 x6) (val_main_v59 (F := Ideal) x0 x1 x2 x3 x4 x5 x6) x7 (row64 x8) x9 p q = _
  unfold sage2At
  rw [val_main_v78_apply, val_main_v76_apply, val_main_v73_apply, val_main_v75_apply, val_main_v74_apply, val_main_v77_apply,
    row64_ix2]
  generalize val_main_v72 (F := Ideal) x0 x1 x2 x3 x4 x5 x6 = a
  generalize val_main_v59 (F := Ideal) x0 x1 x2 x3 x4 x5 x6 = h
  have el : ∀ k : Fin 128, lidx_main_v73 (ix2 p q) k = ix2 p k := fun k =>
    funext fun c => Fin.ext (by match c with | ⟨0, _⟩ => rfl | ⟨1, _⟩ => rfl)
  have er : ∀ k : Fin 128, ridx_main_v73 (ix2 p q) k = ix2 k q := fun k =>
    funext fun c => Fin.ext (by match c with | ⟨0, _⟩ => rfl | ⟨1, _⟩ => rfl)
  have el' : ∀ k : Fin 128, lidx_main_v77 (ix2 p q) k = ix2 p k := fun k =>
    funext fun c => Fin.ext (by match c with | ⟨0, _⟩ => rfl | ⟨1, _⟩ => rfl)
  have er' : ∀ k : Fin 128, ridx_main_v77 (ix2 p q) k = ix2 k q := fun k =>
    funext fun c => Fin.ext (by match c with | ⟨0, _⟩ => rfl | ⟨1, _⟩ => rfl)
  have eb : idx_main_v74 (idx_main_v75 (ix2 p q)) = ix1 q :=
    funext fun c => Fin.ext (by match c with | ⟨0, _⟩ => rfl)
  simp only [el, er, el', er', eb, Ideal.addf_def]
  exact (add_bias_comm _ _ _).symm

end Cert.Bridge

end
-- ==== Proof.Stats.lean ====
import proofs.«160027_j3092376453137_1_alg».proof.Proof.BridgeLayer
import Idealize.ShloMosaic.Lib.Pipeline.Value
import Idealize.ShloMosaic.Lib.ValueLayout
import Idealize.ShloMosaic.PureOps.Ideal.Laws

/-!
# Mean and variance of a column

For real numbers `h₁ … h_N` with mean `μ = (∑ hᵢ)/N` the mean of the squared deviations `(∑ (hᵢ − μ)²)/N` is
`(∑ hᵢ²)/N − μ·μ`.  Over the extended reals the identity needs every `hᵢ` finite.
-/

set_option maxRecDepth 16384

noncomputable section

open Idealize.ShloMosaic Idealize.ShloMosaic.ValueIdx
open scoped BigOperators

namespace Cert.Bridge

open Cert.ReferenceIdeal Cert.ReferenceIdeal.ReadP Cert.Spec

/-! ## The node count -/

/-- The word `0x47435000` denotes the real number `50000`. -/
theorem ofBits_nodes : Ideal.ofBits .f32 0x47435000#32 = ((50000 : ℝ) : EReal) := by
  simp [Ideal.ofBits, Ideal.ieee, -EReal.coe_mul]; norm_num

/-- Division by the node count is the product with its reciprocal. -/
theorem div_nodes (x : EReal) :
    Ideal.div x (Ideal.ofBits .f32 0x47435000#32) = x * ((1 / 50000 : ℝ) : EReal) := by
  rw [ofBits_nodes]; exact Ideal.div_coe (by norm_num) x

/-! ## Sums of real numbers inside the extended reals -/

/-- The coercion of the reals into the extended reals commutes with finite sums. -/
theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- Mean of squared deviations is mean of squares minus squared mean, over any finite index type of `N ≠ 0` elements. -/
theorem real_var {ι : Type} [Fintype ι] (f : ι → ℝ) (N : ℝ) (hN : N ≠ 0) (hcard : (Fintype.card ι : ℝ) = N) :
    (∑ i, (f i - (∑ j, f j) * (1 / N)) * (f i - (∑ j, f j) * (1 / N))) * (1 / N)
      = (∑ i, f i * f i) * (1 / N) - ((∑ j, f j) * (1 / N)) * ((∑ j, f j) * (1 / N)) := by
  generalize hS : ∑ j, f j = S
  generalize hμ : S * (1 / N) = μ
  have h1 : ∑ i, (f i - μ) * (f i - μ) = (∑ i, f i * f i) - 2 * μ * S + N * (μ * μ) := by
    have e : ∀ i, (f i - μ) * (f i - μ) = f i * f i - 2 * μ * f i + μ * μ := fun i => by ring
    simp only [e, Finset.sum_add_distrib, Finset.sum_sub_distrib, ← Finset.mul_sum, Finset.sum_const,
      Finset.card_univ, nsmul_eq_mul, hcard, hS]
    ring
  rw [h1, ← hμ]; field_simp; ring

/-! ## The two programs' statistics read at a column -/

section
variable (x0 : FVec Ideal S50000x64 .f32) (x1 : IVec S2x800000 32) (x2 : FVec Ideal S64x128 .f32) (x3 : FVec Ideal S128 .f32)
  (x4 : FVec Ideal S64x128 .f32)

/-- The node count array holds the word `0x47435000` at every entry. -/
theorem nodes_ix2 (z : Fin 1) (q : Fin 128) : nodes (ix2 z q) = Ideal.ofBits .f32 0x47435000#32 := rfl

/-- The reference's sum over rows reads column `q` at row `k`. -/
theorem idx34 (q : Fin 128) (k : Fin 50000) : idx_main_v34 (ix1 q) k = ix2 k q := by
  funext a; match a with | ⟨0, _⟩ => rfl | ⟨1, _⟩ => rfl

/-- Likewise for the sum of the squared deviations. -/
theorem idx41 (q : Fin 128) (k : Fin 50000) : idx_main_v41 (ix1 q) k = ix2 k q := by
  funext a; match a with | ⟨0, _⟩ => rfl | ⟨1, _⟩ => rfl

/-- The reference's column mean: the column's sum times `1/50000`. -/
theorem v36_ix1 (q : Fin 128) :
    val_main_v36 (F := Ideal) x0 x1 x2 x3 x4 (ix1 q)
      = (∑ k : Fin 50000, val_main_v33 (F := Ideal) x0 x1 x2 x3 x4 (ix2 k q)) * ((1 / 50000 : ℝ) : EReal) := by
  have e : val_main_v36 (F := Ideal) x0 x1 x2 x3 x4 (ix1 q)
      = Ideal.div (val_main_v34 (F := Ideal) x0 x1 x2 x3 x4 (ix1 q)) (Ideal.ofBits .f32 0x47435000#32) := rfl
  rw [e, div_nodes, val_main_v34_apply]
  have z : ∀ i, (val_main_cst_7 (F := Ideal)) i = 0 := fun _ => Ideal.ofBits_zero_f32
  rw [z, zero_add]
  have hk : ∀ k : Fin 50000, val_main_v33 (F := Ideal) x0 x1 x2 x3 x4 (idx_main_v34 (ix1 q) k)
      = val_main_v33 (F := Ideal) x0 x1 x2 x3 x4 (ix2 k q) := fun k => by rw [idx34]
  rw [Finset.sum_congr rfl fun k _ => hk k]

/-- The reference's broadcast mean, read at a row of column `q`, is the mean of column `q`. -/
theorem v38_ix2 (k : Fin 50000) (q : Fin 128) :
    val_main_v38 (F := Ideal) x0 x1 x2 x3 x4 (ix2 k q) = val_main_v36 (F := Ideal) x0 x1 x2 x3 x4 (ix1 q) := by
  rw [val_main_v38_apply, val_main_v37_apply]
  refine congrArg _ ?_
  funext a; match a with | ⟨0, _⟩ => rfl

/-- The reference's column variance: the sum of the squared deviations times `1/50000`. -/
theorem v43_ix1 (q : Fin 128) :
    val_main_v43 (F := Ideal) x0 x1 x2 x3 x4 (ix1 q)
      = (∑ k : Fin 50000,
          (val_main_v33 (F := Ideal) x0 x1 x2 x3 x4 (ix2 k q) - val_main_v36 (F := Ideal) x0 x1 x2 x3 x4 (ix1 q))
          * (val_main_v33 (F := Ideal) x0 x1 x2 x3 x4 (ix2 k q) - val_main_v36 (F := Ideal) x0 x1 x2 x3 x4 (ix1 q)))
        * ((1 / 50000 : ℝ) : EReal) := by
  have e : val_main_v43 (F := Ideal) x0 x1 x2 x3 x4 (ix1 q)
      = Ideal.div (val_main_v41 (F := Ideal) x0 x1 x2 x3 x4 (ix1 q)) (Ideal.ofBits .f32 0x47435000#32) := rfl
  rw [e, div_nodes, val_main_v41_apply]
  have z : ∀ i, (val_main_cst_9 (F := Ideal)) i = 0 := fun _ => Ideal.ofBits_zero_f32
  rw [z, zero_add]
  have hk : ∀ k : Fin 50000, val_main_v40 (F := Ideal) x0 x1 x2 x3 x4 (idx_main_v41 (ix1 q) k)
      = (val_main_v33 (F := Ideal) x0 x1 x2 x3 x4 (ix2 k q) - val_main_v36 (F := Ideal) x0 x1 x2 x3 x4 (ix1 q))
        * (val_main_v33 (F := Ideal) x0 x1 x2 x3 x4 (ix2 k q) - val_main_v36 (F := Ideal) x0 x1 x2 x3 x4 (ix1 q)) := by
    intro k
    rw [idx41, val_main_v40_apply, val_main_v39_apply, v38_ix2]
    rfl
  rw [Finset.sum_congr rfl fun k _ => hk k]

/-- The kernel program's column mean: the column's sum times `1/50000`. -/
theorem muK_ix2 (q : Fin 128) :
    muK x0 x1 x2 x3 x4 (ix2 0 q)
      = (∑ r : Fin 50000, h1K x0 x1 x2 x3 x4 (ix2 r q)) * ((1 / 50000 : ℝ) : EReal) := by
  have e : muK x0 x1 x2 x3 x4 (ix2 0 q)
      = Ideal.div (colsum (h1K x0 x1 x2 x3 x4) (ix2 0 q)) (nodes (ix2 0 q)) := rfl
  rw [e, nodes_ix2, div_nodes, colsum_ix2]

/-- The kernel program's column variance: the sum of squares times `1/50000`, minus the squared mean. -/
theorem varK_ix2 (q : Fin 128) :
    varK x0 x1 x2 x3 x4 (ix2 0 q)
      = (∑ r : Fin 50000, h1K x0 x1 x2 x3 x4 (ix2 r q) * h1K x0 x1 x2 x3 x4 (ix2 r q)) * ((1 / 50000 : ℝ) : EReal)
        - muK x0 x1 x2 x3 x4 (ix2 0 q) * muK x0 x1 x2 x3 x4 (ix2 0 q) := by
  have e : varK x0 x1 x2 x3 x4 (ix2 0 q)
      = Ideal.div (colsumsq (h1K x0 x1 x2 x3 x4) (ix2 0 q)) (nodes (ix2 0 q))
        - muK x0 x1 x2 x3 x4 (ix2 0 q) * muK x0 x1 x2 x3 x4 (ix2 0 q) := rfl
  rw [e, nodes_ix2, div_nodes, colsumsq_ix2]

end

/-- The kernel program's column mean is the reference's `%36`. -/
theorem muK_ref (x0 : FVec Ideal S50000x64 .f32) (x1 : IVec S2x800000 32) (x2 : FVec Ideal S64x128 .f32) (x3 : FVec Ideal S128 .f32) (x4 : FVec Ideal S64x128 .f32) (q : Fin 128) :
    muK x0 x1 x2 x3 x4 (ix2 0 q) = val_main_v36 (F := Ideal) x0 x1 x2 x3 x4 (ix1 q) := by
  rw [muK_ix2, v36_ix1, h1K_ref]

/-- Where the first layer is finite, the kernel program's column variance `ss/N − μ·μ` is the reference's `%43`, the mean
    of the squared deviations. -/
theorem varK_ref (x0 : FVec Ideal S50000x64 .f32) (x1 : IVec S2x800000 32) (x2 : FVec Ideal S64x128 .f32) (x3 : FVec Ideal S128 .f32) (x4 : FVec Ideal S64x128 .f32) (hreal : AllReal (val_main_v33 (F := Ideal) x0 x1 x2 x3 x4)) (q : Fin 128) :
    varK x0 x1 x2 x3 x4 (ix2 0 q) = val_main_v43 (F := Ideal) x0 x1 x2 x3 x4 (ix1 q) := by
  rw [varK_ix2, muK_ix2, v43_ix1, v36_ix1, h1K_ref]
  generalize val_main_v33 (F := Ideal) x0 x1 x2 x3 x4 = h at hreal ⊢
  choose g hg using hreal
  simp only [hg, ← EReal.coe_mul, ← EReal.coe_sub, coe_sum]
  rw [EReal.coe_eq_coe_iff]
  exact (real_var (fun k : Fin 50000 => g (ix2 k q)) 50000 (by norm_num) (by rw [Fintype.card_fin]; norm_num)).symm

end Cert.Bridge

end
-- ==== Proof.BridgeNorm.lean ====
import proofs.«160027_j3092376453137_1_alg».proof.Proof.Stats
import Idealize.ShloMosaic.Lib.Pipeline.Value
import Idealize.ShloMosaic.Lib.ValueLayout
import Idealize.ShloMosaic.PureOps.Ideal.Laws

/-!
# The normalisation and the whole encoder against the reference

With equal first layers, column means and column variances the two normalisations apply the same operations entry by
entry; the neighbourhood mean of equal arrays is the same function of them; the second layers differ by the order of
three summands.
-/

set_option maxRecDepth 16384

noncomputable section

open Idealize.ShloMosaic Idealize.ShloMosaic.ValueIdx
open scoped BigOperators

namespace Cert.Bridge

open Cert.ReferenceIdeal Cert.ReferenceIdeal.ReadP Cert.Spec

/-- Where the first layer is finite, the kernel program's normalised array is the reference's `%59`. -/
theorem h2K_ref (x0 : FVec Ideal S50000x64 .f32) (x1 : IVec S2x800000 32) (x2 : FVec Ideal S64x128 .f32) (x3 : FVec Ideal S128 .f32) (x4 : FVec Ideal S64x128 .f32) (x5 x6 : FVec Ideal S128 .f32) (hreal : AllReal (val_main_v33 (F := Ideal) x0 x1 x2 x3 x4)) :
    h2K x0 x1 x2 x3 x4 x5 x6 = val_main_v59 (F := Ideal) x0 x1 x2 x3 x4 x5 x6 := by
  funext i
  obtain ⟨p, q, rfl⟩ : ∃ (p : Fin 50000) (q : Fin 128), i = ix2 p q := ⟨i 0, i 1, eq_ix2 i⟩
  -- a one-row array broadcast over the rows is read at row 0, and a vector kept as one row at its own position
  have e45 : idx_main_v45 (ix2 p q) = ix2 (0 : Fin 1) q :=
    funext fun a => Fin.ext (by match a with | ⟨0, _⟩ => rfl | ⟨1, _⟩ => rfl)
  have e44 : idx_main_v44 (ix2 (0 : Fin 1) q) = ix1 q :=
    funext fun a => Fin.ext (by match a with | ⟨0, _⟩ => rfl)
  have e51 : idx_main_v51 (ix2 p q) = ix2 (0 : Fin 1) q :=
    funext fun a => Fin.ext (by match a with | ⟨0, _⟩ => rfl | ⟨1, _⟩ => rfl)
  have e50 : idx_main_v50 (ix2 (0 : Fin 1) q) = ix1 q :=
    funext fun a => Fin.ext (by match a with | ⟨0, _⟩ => rfl)
  have e54 : idx_main_v54 (ix2 p q) = ix2 (0 : Fin 1) q :=
    funext fun a => Fin.ext (by match a with | ⟨0, _⟩ => rfl | ⟨1, _⟩ => rfl)
  have e53 : idx_main_v53 (ix2 (0 : Fin 1) q) = ix1 q :=
    funext fun a => Fin.ext (by match a with | ⟨0, _⟩ => rfl)
  have e57 : idx_main_v57 (ix2 p q) = ix2 (0 : Fin 1) q :=
    funext fun a => Fin.ext (by match a with | ⟨0, _⟩ => rfl | ⟨1, _⟩ => rfl)
  have e56 : idx_main_v56 (ix2 (0 : Fin 1) q) = ix1 q :=
    funext fun a => Fin.ext (by match a with | ⟨0, _⟩ => rfl)
  show bnreluAt (h1K x0 x1 x2 x3 x4) (muK x0 x1 x2 x3 x4) (varK x0 x1 x2 x3 x4) (row128 x5) (row128 x6) p q = _
  unfold bnreluAt
  rw [muK_ref, varK_ref x0 x1 x2 x3 x4 hreal, h1K_ref]
  rw [val_main_v59_apply, val_main_v58_apply, val_main_v55_apply, val_main_v52_apply, val_main_v46_apply,
    val_main_v45_apply, e45, val_main_v44_apply, e44, val_main_v51_apply, e51, val_main_v50_apply, e50,
    val_main_v49_apply, val_main_v48_apply, val_main_v47_apply, val_main_cst_11_apply,
    val_main_v54_apply, e54, val_main_v53_apply, e53, val_main_v57_apply, e57, val_main_v56_apply, e56,
    val_main_call1_v0_apply, val_main_call1_cst_apply]
  simp only [row128, shapeCast_a_1a_apply, Ideal.maximumf_def, Ideal.addf_def, Ideal.mulf_def, Ideal.subf_def,
    Ideal.hostUnary_rsqrt_def, Ideal.ofBits_def]

/-- Where the first layer is finite, the encoder as the kernel's program computes it is the reference's result. -/
theorem outK_ref (x0 : FVec Ideal S50000x64 .f32) (x1 : IVec S2x800000 32) (x2 : FVec Ideal S64x128 .f32) (x3 : FVec Ideal S128 .f32) (x4 : FVec Ideal S64x128 .f32) (x5 x6 : FVec Ideal S128 .f32) (x7 : FVec Ideal S128x64 .f32) (x8 : FVec Ideal S64 .f32) (x9 : FVec Ideal S128x64 .f32) (hreal : AllReal (val_main_v33 (F := Ideal) x0 x1 x2 x3 x4)) :
    outK x0 x1 x2 x3 x4 x5 x6 x7 x8 x9 = val_main_v78 (F := Ideal) x0 x1 x2 x3 x4 x5 x6 x7 x8 x9 := by
  unfold outK
  rw [h2K_ref x0 x1 x2 x3 x4 x5 x6 hreal, agg128_ref]
  exact sage2_ref x0 x1 x2 x3 x4 x5 x6 x7 x8 x9

end Cert.Bridge

end
-- ==== Proof.LibGatherScatter.lean ====
/-
  Decoding lemmas for StableHLO gather / scatter dimension numbers read at an index: the row gather
  of a rank-2 table, the landing index of a row scatter (rank-2 and rank-1 operands) and the
  accumulating scatter at the ideal instance as a sum over the update rows whose index is the row read,
  with the two small facts about a start-index column that go with them. Every lemma is generic in the
  record of dimension numbers and in the extents; the record's fields are hypotheses, each an `rfl` at a literal record.
-/
import Idealize.ShloMosaic.PureOps.Ideal
import Idealize.ShloMosaic.Lib.ValueIdx
import Idealize.ShloMosaic.Lib.StableHlo.Predicate

open scoped BigOperators

namespace Cert.LibGatherScatter

open Idealize.ShloMosaic
open Idealize.ShloMosaic.ValueIdx
open Idealize.ShloMosaic.StableHlo.Predicate

/-! ## Lists of axes: an entry of a one-element list is that element -/

/-- Every entry of a list that equals the one-element list `[a]` is `a`. -/
theorem getElem_of_eq_singleton {β : Type} {l : List β} {a : β} (h : l = [a]) (k : Nat) (hk : k < l.length) :
    l[k] = a := by
  subst h
  have : k = 0 := by simpa using hk
  subst this
  rfl

/-! ## The row gather of a rank-2 table -/

/-- THE ROW GATHER. A `stablehlo.gather` of a rank-2 table `[N × C]` at an `[n × 1]` column of start indices, whose
    row axis is collapsed and start-indexed, whose column axis is the one offset axis with the whole row as the slice,
    without batching axes and with the index vector on axis 1: result element `(e, q)` is the table at row
    `idx[e, 0]` read SIGNED and CLAMPED into `[0, N − 1]`, column `q`. -/
theorem rowGather_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (_hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (e : Fin n) (q : Fin C) :
    Host.gather d x idx (ix2 e q) = x (ix2 ⟨min (idx (ixP e)).toInt.toNat (N - 1), by omega⟩ q) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e q) idx 0 + d.batchCoord (ix2 e q) 0 + d.offCoord (ix2 e q) 0 = min (idx (ixP e)).toInt.toNat (N - 1)
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      have key : ∀ X : Fin 2, X = 0 → ((ix2 e q : (⟨2, ![n, C]⟩ : Shape).Idx) X).val = e.val := by
        rintro _ rfl; rfl
      exact key _ (getElem_of_eq_singleton hbd _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1)]
    simp only [Nat.add_zero, GatherDims.start, dif_neg hm, GatherDims.offCoord, dif_pos hk, Nat.zero_add]
    have key : ∀ X : Fin 2, X = 1 → ((ix2 e q : (⟨2, ![n, C]⟩ : Shape).Idx) X).val = q.val := by
      rintro _ rfl; rfl
    exact key _ (getElem_of_eq_singleton hoff _ _)

/-! ## The row scatter of a rank-2 operand: where an update element lands -/

section RowScatter
variable {N C n w : Nat} (d : ScatterDims ⟨2, ![N, C]⟩ ⟨2, ![n, 1]⟩ ⟨2, ![n, C]⟩)

/-- On the operand's row axis the window of update element `(e, q)` starts at the scatter index `idx[e, 0]`, read signed
    and not clamped. -/
theorem rowScatter_start_row (huw : d.updateWindowDims = [1]) (hsd : d.scatterDimsToOperandDims = [0])
    (hivd : d.indexVectorDim = 1) (idx : IVec ⟨2, ![n, 1]⟩ w) (e : Fin n) (q : Fin C) :
    d.start (ix2 e q) idx 0 = (idx (ixP e)).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; rfl
    have key : ∀ X : Fin 2, X = 0 → ((ix2 e q : (⟨2, ![n, C]⟩ : Shape).Idx) X).val = e.val := by
      rintro _ rfl; rfl
    exact key _ (getElem_of_eq_singleton hus _ _)
  | ⟨1, _⟩ =>
    unfold ScatterDims.siIdx
    rw [dif_pos (by rw [hivd])]
    apply Fin.ext
    show List.idxOf (0 : Fin 2) d.scatterDimsToOperandDims = 0
    rw [hsd]; simp

/-- On the operand's column axis, which the scatter index does not name, every window starts at 0. -/
theorem rowScatter_start_col (hsd : d.scatterDimsToOperandDims = [0]) (idx : IVec ⟨2, ![n, 1]⟩ w)
    (j : (⟨2, ![n, C]⟩ : Shape).Idx) : d.start j idx 1 = 0 := by
  have hm : (1 : Fin 2) ∉ d.scatterDimsToOperandDims := by rw [hsd]; simp
  unfold ScatterDims.start
  rw [dif_neg hm]

/-- The row axis is inserted: the window coordinate on it is 0. -/
theorem rowScatter_window_row (hiw : d.insertedWindowDims = [0]) (j : (⟨2, ![n, C]⟩ : Shape).Idx) : d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- The column axis is the one window axis: the window coordinate on it is the update element's column. -/
theorem rowScatter_window_col (huw : d.updateWindowDims = [1]) (hiw : d.insertedWindowDims = [0]) (e : Fin n) (q : Fin C) :
    d.window (ix2 e q) 1 = q.val := by
  have hk : (1 : Fin 2) ∈ d.sKept := by
    show (1 : Fin 2) ∈ Shape.kept _ d.insertedWindowDims
    rw [hiw]; simp [Shape.kept]
  unfold ScatterDims.window
  rw [dif_pos hk]
  have key : ∀ X : Fin 2, X = 1 → ((ix2 e q : (⟨2, ![n, C]⟩ : Shape).Idx) X).val = q.val := by
    rintro _ rfl; rfl
  exact key _ (getElem_of_eq_singleton huw _ _)

/-- WHERE A ROW UPDATE LANDS. A `stablehlo.scatter` into a rank-2 operand `[N × C]` of `[n × C]` updates at an `[n × 1]`
    column of scatter indices, whose row axis is inserted and scatter-indexed, whose column axis is the one window axis,
    with the index vector on axis 1: update element `(e, q)` lands on operand element `i` exactly when its scatter index
    `idx[e, 0]`, read SIGNED and NOT clamped, is `i`'s row, and `q` is `i`'s column. An index outside `[0, N)` lands
    nowhere. -/
theorem rowScatter_resultIdx?_eq_some_iff (huw : d.updateWindowDims = [1]) (hiw : d.insertedWindowDims = [0])
    (hsd : d.scatterDimsToOperandDims = [0]) (hivd : d.indexVectorDim = 1) (idx : IVec ⟨2, ![n, 1]⟩ w)
    (e : Fin n) (q : Fin C) (i : (⟨2, ![N, C]⟩ : Shape).Idx) :
    d.resultIdx? (ix2 e q) idx = some i ↔ (idx (ixP e)).toInt = ((i 0).val : ℤ) ∧ q = i 1 := by
  have h0 : d.start (ix2 e q) idx 0 + d.window (ix2 e q) 0 = (idx (ixP e)).toInt := by
    rw [rowScatter_start_row d huw hsd hivd, rowScatter_window_row d hiw]; simp
  have h1 : d.start (ix2 e q) idx 1 + d.window (ix2 e q) 1 = (q.val : ℤ) := by
    rw [rowScatter_start_col d hsd, rowScatter_window_col d huw hiw]; simp
  unfold ScatterDims.resultIdx?
  split
  · next h =>
    rw [Option.some.injEq]
    constructor
    · intro hi
      have e0 : (d.start (ix2 e q) idx 0 + d.window (ix2 e q) 0).toNat = (i 0).val := congrArg Fin.val (congrFun hi 0)
      have e1 : (d.start (ix2 e q) idx 1 + d.window (ix2 e q) 1).toNat = (i 1).val := congrArg Fin.val (congrFun hi 1)
      have p0 := (h 0).1
      rw [h0] at e0 p0
      rw [h1] at e1
      refine ⟨by omega, Fin.ext (by simpa using e1)⟩
    · rintro ⟨hi0, hq⟩
      funext a
      apply Fin.ext
      match a with
      | ⟨0, _⟩ =>
        show (d.start (ix2 e q) idx 0 + d.window (ix2 e q) 0).toNat = (i 0).val
        rw [h0, hi0]; simp
      | ⟨1, _⟩ =>
        show (d.start (ix2 e q) idx 1 + d.window (ix2 e q) 1).toNat = (i 1).val
        rw [h1, hq]; simp
  · next h =>
    constructor
    · intro hi; exact absurd hi (by simp)
    · rintro ⟨hi0, hq⟩
      exfalso
      apply h
      intro a
      match a with
      | ⟨0, _⟩ =>
        show 0 ≤ d.start (ix2 e q) idx 0 + d.window (ix2 e q) 0 ∧ d.start (ix2 e q) idx 0 + d.window (ix2 e q) 0 < (N : ℤ)
        rw [h0, hi0]
        exact ⟨by positivity, by exact_mod_cast idx2_lt0 i⟩
      | ⟨1, _⟩ =>
        show 0 ≤ d.start (ix2 e q) idx 1 + d.window (ix2 e q) 1 ∧ d.start (ix2 e q) idx 1 + d.window (ix2 e q) 1 < (C : ℤ)
        rw [h1]
        exact ⟨by positivity, by exact_mod_cast q.isLt⟩

/-- THE ACCUMULATING ROW SCATTER AT THE IDEAL INSTANCE. With those dimension numbers, element `(r, q)` of
    `x.at[idx].add(upd)` is `x[r, q]` plus the exact sum of `upd[e, q]` over the update rows `e` whose scatter index
    `idx[e, 0]`, read signed and not clamped, is `r`. -/
theorem rowScatterAdd_apply {φ : FTy} (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ) (r : Fin N) (q : Fin C) :
    Host.scatterAdd (F := Ideal) d x idx upd (ix2 r q)
      = x (ix2 r q) + ∑ e ∈ Finset.univ.filter (fun e : Fin n => (idx (ixP e)).toInt = (r.val : ℤ)), upd (ix2 e q) := by
  have key : ∀ j : (⟨2, ![n, C]⟩ : Shape).Idx,
      d.resultIdx? j idx = some (ix2 r q) ↔ (idx (ixP (j 0))).toInt = (r.val : ℤ) ∧ j 1 = q := by
    intro j
    obtain ⟨a, b, rfl⟩ : ∃ a b, j = ix2 a b := ⟨j 0, j 1, eq_ix2 j⟩
    exact rowScatter_resultIdx?_eq_some_iff d huw hiw hsd hivd idx a b (ix2 r q)
  have hback : ∀ j : (⟨2, ![n, C]⟩ : Shape).Idx, j 1 = q → ix2 (j 0) q = j := fun j hq => by
    funext a
    match a with
    | ⟨0, _⟩ => rfl
    | ⟨1, _⟩ => exact hq.symm
  simp only [Host.scatterAdd, Ideal.hostScatterAdd_def, Ideal.hostScatterAdd]
  congr 1
  refine Finset.sum_bij' (fun j _ => j 0) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    exact hback j ((key j).1 (Finset.mem_filter.1 hj).2).2
  · intro e _
    rfl
  · intro j hj
    exact congrArg upd (hback j ((key j).1 (Finset.mem_filter.1 hj).2).2).symm

end RowScatter

/-! ## The scatter into a rank-1 operand -/

section VecScatter
variable {N n w : Nat} (d : ScatterDims ⟨1, ![N]⟩ ⟨2, ![n, 1]⟩ ⟨1, ![n]⟩)

/-- On the operand's one axis the window of update element `e` starts at the scatter index `idx[e, 0]`, read signed and
    not clamped. -/
theorem vecScatter_start (hsd : d.scatterDimsToOperandDims = [0]) (hivd : d.indexVectorDim = 1)
    (idx : IVec ⟨2, ![n, 1]⟩ w) (e : Fin n) : d.start (ix1 e) idx 0 = (idx (ixP e)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have key : ∀ X : Fin 1, ((ix1 e : (⟨1, ![n]⟩ : Shape).Idx) X).val = e.val := fun X => by
      have hX : X = 0 := Subsingleton.elim _ _
      subst hX; rfl
    exact key _
  | ⟨1, _⟩ =>
    unfold ScatterDims.siIdx
    rw [dif_pos (by rw [hivd])]
    apply Fin.ext
    show List.idxOf (0 : Fin 1) d.scatterDimsToOperandDims = 0
    rw [hsd]; simp

/-- The operand's one axis is inserted: the window coordinate on it is 0. -/
theorem vecScatter_window (hiw : d.insertedWindowDims = [0]) (j : (⟨1, ![n]⟩ : Shape).Idx) : d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- WHERE AN UPDATE LANDS, RANK 1. A `stablehlo.scatter` into a rank-1 operand `[N]` of `[n]` updates at an `[n × 1]`
    column of scatter indices, the operand's axis inserted and scatter-indexed, no window axes, the index vector on
    axis 1: update element `e` lands on operand element `i` exactly when its scatter index `idx[e, 0]`, read SIGNED and
    NOT clamped, is `i`'s position. An index outside `[0, N)` lands nowhere. -/
theorem vecScatter_resultIdx?_eq_some_iff (_huw : d.updateWindowDims = []) (hiw : d.insertedWindowDims = [0])
    (hsd : d.scatterDimsToOperandDims = [0]) (hivd : d.indexVectorDim = 1) (idx : IVec ⟨2, ![n, 1]⟩ w)
    (e : Fin n) (i : (⟨1, ![N]⟩ : Shape).Idx) :
    d.resultIdx? (ix1 e) idx = some i ↔ (idx (ixP e)).toInt = ((i 0).val : ℤ) := by
  have h0 : d.start (ix1 e) idx 0 + d.window (ix1 e) 0 = (idx (ixP e)).toInt := by
    rw [vecScatter_start d hsd hivd, vecScatter_window d hiw]; simp
  unfold ScatterDims.resultIdx?
  split
  · next h =>
    rw [Option.some.injEq]
    constructor
    · intro hi
      have e0 : (d.start (ix1 e) idx 0 + d.window (ix1 e) 0).toNat = (i 0).val := congrArg Fin.val (congrFun hi 0)
      have p0 := (h 0).1
      rw [h0] at e0 p0
      omega
    · intro hi0
      funext a
      apply Fin.ext
      match a with
      | ⟨0, _⟩ =>
        show (d.start (ix1 e) idx 0 + d.window (ix1 e) 0).toNat = (i 0).val
        rw [h0, hi0]; simp
  · next h =>
    constructor
    · intro hi; exact absurd hi (by simp)
    · intro hi0
      exfalso
      apply h
      intro a
      match a with
      | ⟨0, _⟩ =>
        show 0 ≤ d.start (ix1 e) idx 0 + d.window (ix1 e) 0 ∧ d.start (ix1 e) idx 0 + d.window (ix1 e) 0 < (N : ℤ)
        rw [h0, hi0]
        exact ⟨by positivity, by exact_mod_cast (i 0).isLt⟩

/-- THE ACCUMULATING SCATTER INTO A RANK-1 OPERAND AT THE IDEAL INSTANCE. With those dimension numbers, element `r` of
    `x.at[idx].add(upd)` is `x[r]` plus the exact sum of `upd[e]` over the update positions `e` whose scatter index
    `idx[e, 0]`, read signed and not clamped, is `r`. -/
theorem vecScatterAdd_apply {φ : FTy} (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (r : Fin N) :
    Host.scatterAdd (F := Ideal) d x idx upd (ix1 r)
      = x (ix1 r) + ∑ e ∈ Finset.univ.filter (fun e : Fin n => (idx (ixP e)).toInt = (r.val : ℤ)), upd (ix1 e) := by
  have key : ∀ j : (⟨1, ![n]⟩ : Shape).Idx,
      d.resultIdx? j idx = some (ix1 r) ↔ (idx (ixP (j 0))).toInt = (r.val : ℤ) := by
    intro j
    obtain ⟨a, rfl⟩ : ∃ a, j = ix1 a := ⟨j 0, eq_ix1 j⟩
    exact vecScatter_resultIdx?_eq_some_iff d huw hiw hsd hivd idx a (ix1 r)
  simp only [Host.scatterAdd, Ideal.hostScatterAdd_def, Ideal.hostScatterAdd]
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key _).2 (Finset.mem_filter.1 he).2⟩
  · intro j _
    exact (eq_ix1 j).symm
  · intro e _
    rfl
  · intro j _
    exact congrArg upd (eq_ix1 j)

end VecScatter

/-! ## A start-index column: the vector it is broadcast from, and jnp's index normalisation -/

/-- The rank-1 index built from a coordinate is the library's `Shape.Idx.ofFin` of it (the form `gather_take` and the
    broadcast lemmas are stated with). -/
theorem ix1_eq_ofFin {n : Nat} (e : Fin n) : ix1 e = Shape.Idx.ofFin e := by
  funext a
  have ha : a = 0 := Subsingleton.elim _ _
  subst ha
  exact Fin.ext rfl

/-- A vector kept as an `[n × 1]` column reads, at row `e`, the vector at `e`. -/
theorem bcast_col1_ix1 {α : Type} {n : Nat} (h₁ : (⟨1, ![n]⟩ : Shape).BroadcastsInDim ⟨2, ![n, 1]⟩ ![0])
    (v : (⟨1, ![n]⟩ : Shape).Idx → α) (e : Fin n) :
    broadcastInDim ⟨2, ![n, 1]⟩ ![0] h₁ v (ixP e) = v (ix1 e) := by
  rw [ix1_eq_ofFin]
  exact bcast_col1 h₁ v e

/-- jnp's index normalisation `where(v < 0, v + c, v)` read at one element: the select of the elements. The comparand and
    the addend are any vectors (in a program, broadcast scalar constants, which read their word everywhere). -/
theorem normIndex_apply {s : Shape} (V Z A : IVec s 32) (i : s.Idx) :
    select (cmpi .slt V Z) (addi V A) V i = Scalar.select (IntOp.cmpi .slt (V i) (Z i)) (IntOp.addi (V i) (A i)) (V i) := rfl

/-- A broadcast scalar constant reads its word at every index. -/
theorem bcast_constantI_apply {s₀ t : Shape} (dims : Fin s₀.rank → Fin t.rank) (h : s₀.BroadcastsInDim t dims)
    (b : BitVec 32) (j : t.Idx) : broadcastInDim t dims h (constantI s₀ 32 b) j = b := rfl

/-- A word whose signed value is a natural number is not below zero: the signed comparison with the zero word is the
    bit 0. -/
theorem cmpi_slt_zero_of_toInt_eq_natCast {v : BitVec 32} {r : Nat} (hv : v.toInt = (r : ℤ)) :
    IntOp.cmpi .slt v 0#32 = 0#1 := by
  have h0 : (0#32 : BitVec 32).toInt = 0 := by decide
  have hlt : v.slt 0#32 = false := by
    simp only [BitVec.slt, hv, h0, decide_eq_false_iff_not]; omega
  show BitVec.ofBool (v.slt 0#32) = 0#1
  rw [hlt]; rfl

/-- AN INDEX ALREADY IN RANGE IS NEITHER WRAPPED NOR CLAMPED. For a 32-bit index word `v` whose signed value is `r` with
    `r < N`: jnp's normalisation `select (v < 0) (v + c) v` (whatever the addend `c`; a program's is the extent) followed
    by the gather's signed read and clamp into `[0, N − 1]` gives `r`. -/
theorem normIndex_clamp_of_inRange (v c : BitVec 32) {N r : Nat} (hr : r < N) (hv : v.toInt = (r : ℤ)) :
    min (Scalar.select (IntOp.cmpi .slt v 0#32) (IntOp.addi v c) v).toInt.toNat (N - 1) = r := by
  rw [cmpi_slt_zero_of_toInt_eq_natCast hv, select_zero, hv]
  simp only [Int.toNat_natCast]
  omega

/-- The same at row `e` of the start-index column a gather reads: the column is the normalised index vector kept as
    `[n × 1]`; when the comparand reads the zero word at `e` and the index at `e` has signed value `r < N`, the start index
    read signed and clamped into `[0, N − 1]` is `r`. -/
theorem normIndexCol_clamp_of_inRange {n N r : Nat} (h₁ : (⟨1, ![n]⟩ : Shape).BroadcastsInDim ⟨2, ![n, 1]⟩ ![0])
    (V Z A : IVec ⟨1, ![n]⟩ 32) (e : Fin n) (hZ : Z (ix1 e) = 0#32) (hr : r < N) (hv : (V (ix1 e)).toInt = (r : ℤ)) :
    min (broadcastInDim ⟨2, ![n, 1]⟩ ![0] h₁ (select (cmpi .slt V Z) (addi V A) V) (ixP e)).toInt.toNat (N - 1) = r := by
  rw [bcast_col1_ix1, normIndex_apply, hZ]
  exact normIndex_clamp_of_inRange _ _ hr hv

end Cert.LibGatherScatter
-- ==== Proof.RealLayer.lean ====
import proofs.«160027_j3092376453137_1_alg».proof.Proof.SpecAgg
import proofs.«160027_j3092376453137_1_alg».proof.Proof.LibGatherScatter
import Idealize.ShloMosaic.Lib.Pipeline.Value
import Idealize.ShloMosaic.Lib.ValueLayout
import Idealize.ShloMosaic.PureOps.Ideal.Laws

/-!
# The first layer of finite inputs is finite

Real numbers are closed under sums and products, a gathered row is a row of the table, an accumulating scatter into
zeros adds finitely many update entries, and the inverse in-degree is `1 / max(deg, 1)` or `0`.  So with real node
features, weights and bias every entry of the first layer is a real number, whatever the edge list.
-/

set_option maxRecDepth 16384

noncomputable section

open Idealize.ShloMosaic Idealize.ShloMosaic.ValueIdx
open scoped BigOperators

namespace Cert.Bridge

open Cert.ReferenceIdeal Cert.ReferenceIdeal.ReadP Cert.Spec Cert.LibGatherScatter

/-! ## The real numbers inside the extended reals are closed under the operations of the layer -/

theorem isReal_zero : IsReal (0 : EReal) := ⟨0, rfl⟩

theorem isReal_one : IsReal (1 : EReal) := ⟨1, rfl⟩

theorem isReal_add {a b : EReal} (ha : IsReal a) (hb : IsReal b) : IsReal (a + b) := by
  obtain ⟨r, rfl⟩ := ha
  obtain ⟨s, rfl⟩ := hb
  exact ⟨r + s, (EReal.coe_add r s).symm⟩

theorem isReal_mul {a b : EReal} (ha : IsReal a) (hb : IsReal b) : IsReal (a * b) := by
  obtain ⟨r, rfl⟩ := ha
  obtain ⟨s, rfl⟩ := hb
  exact ⟨r * s, (EReal.coe_mul r s).symm⟩

theorem isReal_max {a b : EReal} (ha : IsReal a) (hb : IsReal b) : IsReal (max a b) := by
  rcases max_choice a b with h | h <;> rw [h] <;> assumption

/-- A finite sum of real numbers is a real number. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The quotient of a real number by `max b 1`, `b` real, is a real number: the divisor is at least one. -/
theorem isReal_div_max_one {a b : EReal} (ha : IsReal a) (hb : IsReal b) : IsReal (Ideal.div a (max b 1)) := by
  obtain ⟨s, rfl⟩ := hb
  have hm : max (s : EReal) 1 = ((max s 1 : ℝ) : EReal) := by
    rw [← EReal.coe_one]; exact (EReal.coe_strictMono.monotone.map_max).symm
  have hpos : (max s 1 : ℝ) ≠ 0 := ne_of_gt (lt_of_lt_of_le one_pos (le_max_right s 1))
  rw [hm, Ideal.div_coe hpos]
  exact isReal_mul ha ⟨_, rfl⟩

/-- The word of `0.0` is the real number zero. -/
theorem isReal_word_zero : IsReal (FloatOps.ofBits (F := Ideal) .f32 0x00000000#32) := by
  rw [Ideal.ofBits_def, Ideal.ofBits_zero_f32]
  exact isReal_zero

theorem word_one : Ideal.ofBits .f32 0x3F800000#32 = 1 := by
  simp [Ideal.ofBits, Ideal.ieee, -EReal.coe_mul]; norm_num

/-- The word of `1.0` is the real number one. -/
theorem isReal_word_one : IsReal (FloatOps.ofBits (F := Ideal) .f32 0x3F800000#32) := by
  rw [Ideal.ofBits_def, word_one]
  exact isReal_one

/-! ## The stages of the reference's first layer -/

/-- The in-degree `%7`: zero plus one for every edge that ends at the node. -/
theorem v7_real (x1 : IVec S2x800000 32) : AllReal (val_main_v7 (F := Ideal) x1) := by
  intro i
  obtain ⟨r, rfl⟩ : ∃ r, i = ix1 r := ⟨i 0, eq_ix1 i⟩
  unfold val_main_v7
  rw [vecScatterAdd_apply scatter_S50000_S800000x1_S800000_n_0_0_1 rfl rfl rfl rfl]
  refine isReal_add ?_ (isReal_sum _ _ fun e _ => ?_)
  · rw [val_main_v5_apply, val_main_cst_0_apply]; exact isReal_word_zero
  · rw [val_main_v4_apply, val_main_cst_apply]; exact isReal_word_one

/-- The inverse in-degree `%14`: `1 / max(deg, 1)` where the degree is positive, else `0`. -/
theorem v14_real (x1 : IVec S2x800000 32) : AllReal (val_main_v14 (F := Ideal) x1) := by
  intro i
  rw [val_main_v14_apply]
  unfold Scalar.select
  split
  · rw [val_main_v13_apply, val_main_v12_apply, val_main_cst_3_apply, val_main_v11_apply, val_main_v10_apply,
      val_main_cst_2_apply, Ideal.hostDivf_def, Ideal.maximumf_def, Ideal.ofBits_def, word_one]
    exact isReal_div_max_one isReal_one (v7_real x1 i)
  · rw [val_main_call0_v1_apply, val_main_call0_v0_apply, val_main_cst_4_apply]; exact isReal_word_zero

/-- The gathered rows `%21`: each entry is an entry of the table. -/
theorem v21_real (x0 : FVec Ideal S50000x64 .f32) (x1 : IVec S2x800000 32) (h0 : AllReal x0) :
    AllReal (val_main_v21 (F := Ideal) x0 x1) := by
  intro i
  obtain ⟨e, q, rfl⟩ : ∃ e q, i = ix2 e q := ⟨i 0, i 1, eq_ix2 i⟩
  unfold val_main_v21
  rw [rowGather_apply gather_S50000x64_S800000x1_S800000x64_1_0_n_n_0_1_164 rfl rfl rfl rfl rfl rfl rfl (by decide)]
  exact h0 _

/-- The neighbourhood sums `%24`: zero plus the gathered rows of the edges that end at the node. -/
theorem v24_real (x0 : FVec Ideal S50000x64 .f32) (x1 : IVec S2x800000 32) (h0 : AllReal x0) :
    AllReal (val_main_v24 (F := Ideal) x0 x1) := by
  intro i
  obtain ⟨r, q, rfl⟩ : ∃ r q, i = ix2 r q := ⟨i 0, i 1, eq_ix2 i⟩
  unfold val_main_v24
  rw [rowScatterAdd_apply scatter_S50000x64_S800000x1_S800000x64_1_0_0_1 rfl rfl rfl rfl]
  refine isReal_add ?_ (isReal_sum _ _ fun e _ => v21_real x0 x1 h0 _)
  rw [val_main_v22_apply, val_main_cst_6_apply]; exact isReal_word_zero

/-- The neighbourhood means `%27`: the sums times the inverse in-degree. -/
theorem v27_real (x0 : FVec Ideal S50000x64 .f32) (x1 : IVec S2x800000 32) (h0 : AllReal x0) :
    AllReal (val_main_v27 (F := Ideal) x0 x1) := by
  intro i
  rw [val_main_v27_apply, Ideal.mulf_def, val_main_v26_apply, val_main_v25_apply]
  exact isReal_mul (v24_real x0 x1 h0 i) (v14_real x1 _)

/-- The first layer `%33`: two products of real matrices plus the bias. -/
theorem v33_real (x0 : FVec Ideal S50000x64 .f32) (x1 : IVec S2x800000 32) (x2 : FVec Ideal S64x128 .f32)
    (x3 : FVec Ideal S128 .f32) (x4 : FVec Ideal S64x128 .f32) (h0 : AllReal x0) (h2 : AllReal x2) (h3 : AllReal x3)
    (h4 : AllReal x4) : AllReal (val_main_v33 (F := Ideal) x0 x1 x2 x3 x4) := by
  intro i
  rw [val_main_v33_apply, val_main_v31_apply, Ideal.addf_def, Ideal.addf_def, val_main_v28_apply, val_main_v32_apply,
    val_main_v30_apply, val_main_v29_apply]
  refine isReal_add (isReal_add (isReal_sum _ _ fun k _ => ?_) (h3 _)) (isReal_sum _ _ fun k _ => ?_)
  · exact isReal_mul (v27_real x0 x1 h0 _) (h2 _)
  · exact isReal_mul (h0 _) (h4 _)

/-- With real node features `x0`, weights `x2`, `x4` and bias `x3`, every entry of the reference's first layer `%33` is
    a real number, for any edge list `x1`. -/
theorem h1_real (x0 : FVec Ideal S50000x64 .f32) (x1 : IVec S2x800000 32) (x2 : FVec Ideal S64x128 .f32) (x3 : FVec Ideal S128 .f32) (x4 : FVec Ideal S64x128 .f32) (h0 : AllReal x0) (h2 : AllReal x2) (h3 : AllReal x3) (h4 : AllReal x4) :
    AllReal (val_main_v33 (F := Ideal) x0 x1 x2 x3 x4) :=
  v33_real x0 x1 x2 x3 x4 h0 h2 h3 h4

end Cert.Bridge

end
-- ==== Proof.PreReal.lean ====
import proofs.«160027_j3092376453137_1_alg».proof.Proof.Gen.Pre_finite_inputs
import proofs.«160027_j3092376453137_1_alg».proof.Proof.SpecAgg
import Idealize.ShloMosaic.Lib.ReduceAll
import Idealize.ShloMosaic.Lib.StableHlo.Predicate
import Idealize.ShloMosaic.PureOps.Ideal.Laws

/-!
# The precondition read: every float input is a real number

The precondition is the conjunction, one float input at a time, of "every entry has absolute value below `+∞`".
An extended real whose absolute value is below `+∞` is a real number.
-/

set_option maxRecDepth 16384

noncomputable section

open Idealize.ShloMosaic Idealize.ShloMosaic.ValueIdx

namespace Cert.Bridge

open Cert.Spec

/-- The word `0x7F800000` (sign 0, exponent all ones, significand 0) denotes `+∞`. -/
theorem inf_bits : Ideal.ofBits .f32 0x7F800000#32 = (⊤ : EReal) := by
  simp [Ideal.ofBits, Ideal.ieee]

/-- `max x (-x) < +∞` leaves only the reals: at `-∞` and at `+∞` the maximum is `+∞`. -/
theorem isReal_of_abs_lt_top (x : EReal) (h : max x (-x) < ⊤) : IsReal x := by
  induction x using EReal.rec with
  | bot => simp at h
  | coe r => exact ⟨r, rfl⟩
  | top => simp at h

/-- One entry: the comparison `|x| < +∞` coming out 1 says `x` is real. -/
theorem isReal_of_cmp (x : Ideal .f32)
    (h : FloatOps.cmpf .olt (FloatOps.hostAbsf x) (FloatOps.ofBits (F := Ideal) .f32 0x7F800000#32) = 1#1) :
    IsReal x := by
  rw [Ideal.hostAbsf_def, Ideal.cmpf_def, Ideal.absf_def] at h
  have hs : FloatOps.ofBits (F := Ideal) .f32 0x7F800000#32 = Ideal.ofBits .f32 0x7F800000#32 := rfl
  rw [hs, inf_bits] at h
  simp only [Ideal.cmp, StableHlo.Predicate.ofBool_eq_one_iff, decide_eq_true_eq] at h
  exact isReal_of_abs_lt_top x h

/-- The rank-0 shape has one index. -/
instance : Subsingleton Cert.Pre_finite_inputs.S_.Idx := ⟨fun a b => funext fun d => d.elim0⟩

/-- One array: if the conjunction over all its entries of `|x| < +∞` is 1, every entry is real. -/
theorem allReal_of_reduce {s : Shape} {axes : List (Fin s.rank)}
    (hb : Cert.Pre_finite_inputs.S_.BroadcastsInDim s (![] : Fin 0 → Fin s.rank))
    (hr : s.ReducesTo axes Cert.Pre_finite_inputs.S_) (h0 : 0 < Cert.Pre_finite_inputs.S_.numel)
    (x : FVec Ideal s .f32) (init : IVec Cert.Pre_finite_inputs.S_ 1) (j : Cert.Pre_finite_inputs.S_.Idx)
    (h : Host.reduce IntOp.andi
        (cmpf .olt (Host.absf x)
          (broadcastInDim s ![] hb (constant (F := Ideal) Cert.Pre_finite_inputs.S_ .f32 0x7F800000#32)))
        init hr h0 j = 1#1) : AllReal x := by
  intro i
  exact isReal_of_cmp (x i) (Host.reduce_andi_all _ init hr h0 j h i)

/-- If the precondition's predicate of ten arrays is all ones, the node features `a0`, the first layer's two weight
    matrices `a2`, `a4` and its bias `a3` hold only real numbers. -/
theorem real_of_fn (a0 : FVec Ideal Cert.Pre_finite_inputs.S50000x64 .f32) (a1 : IVec Cert.Pre_finite_inputs.S2x800000 32)
    (a2 : FVec Ideal Cert.Pre_finite_inputs.S64x128 .f32) (a3 : FVec Ideal Cert.Pre_finite_inputs.S128 .f32)
    (a4 : FVec Ideal Cert.Pre_finite_inputs.S64x128 .f32) (a5 a6 : FVec Ideal Cert.Pre_finite_inputs.S128 .f32)
    (a7 : FVec Ideal Cert.Pre_finite_inputs.S128x64 .f32) (a8 : FVec Ideal Cert.Pre_finite_inputs.S64 .f32)
    (a9 : FVec Ideal Cert.Pre_finite_inputs.S128x64 .f32)
    (h : Cert.Pre_finite_inputs.fn (F := Ideal) a0 a1 a2 a3 a4 a5 a6 a7 a8 a9 = fun _ => 1#1) :
    AllReal a0 ∧ AllReal a2 ∧ AllReal a3 ∧ AllReal a4 := by
  -- the predicate's one entry, as the left-nested conjunction of the nine arrays' conjunctions
  have h1 := congrFun h ValueIdx.ix0
  dsimp only [Cert.Pre_finite_inputs.fn, Cert.Pre_finite_inputs.fn_part1, Cert.Pre_finite_inputs.fn_part2, andi] at h1
  simp only [IntOp.andi_eq_one] at h1
  obtain ⟨⟨⟨⟨⟨⟨⟨⟨h0, h2⟩, h3⟩, h4⟩, _⟩, _⟩, _⟩, _⟩, _⟩ := h1
  exact ⟨allReal_of_reduce _ _ _ a0 _ _ h0, allReal_of_reduce _ _ _ a2 _ _ h2,
    allReal_of_reduce _ _ _ a3 _ _ h3, allReal_of_reduce _ _ _ a4 _ _ h4⟩

end Cert.Bridge

end
-- ==== Proof.lean ====
/-
  The certificate of a two-layer GraphSAGE encoder with batch normalisation between the layers, computed by three
  tiled kernels (first layer with running column sums; normalise, scale, shift and clip; second layer) among host
  operations, against the plain reference.

  The three frames: the word-level kernel program's and its idealization's are the generated frame certificates; the
  reference's is its run with the result dropped.  The idealization rewrote nothing.

  The value claim.  Over the extended reals both programs compute, from the same edge list, the same neighbourhood
  means (one shared host chain), and
    • the first layer as `(a·Wl + x·Wr) + b` against `(a·Wl + b) + x·Wr`: three summands in another order;
    • the column mean as `(∑ h)/N` on both sides, the sums taken row block by row block in the kernel;
    • the column variance as `(∑ h²)/N − μ·μ` against `(∑ (h − μ)²)/N`: equal for real numbers, and the first layer
      of finite inputs is finite — this is where the precondition is used;
    • the same normalisation, scale, shift and clip entry by entry, and the second layer again up to the order of
      three summands.
-/
import proofs.«160027_j3092376453137_1_alg».proof.Defs
import proofs.«160027_j3092376453137_1_alg».proof.Proof.Gen.Kernel
import proofs.«160027_j3092376453137_1_alg».proof.Proof.Gen.Kernel.Frame
import proofs.«160027_j3092376453137_1_alg».proof.Proof.Gen.KernelIdeal
import proofs.«160027_j3092376453137_1_alg».proof.Proof.Gen.KernelIdeal.Frame
import proofs.«160027_j3092376453137_1_alg».proof.Proof.Gen.ReferenceIdeal
import proofs.«160027_j3092376453137_1_alg».proof.Proof.Gen.Pre_finite_inputs
import proofs.«160027_j3092376453137_1_alg».proof.Proof.RefRead
import proofs.«160027_j3092376453137_1_alg».proof.Proof.KRun
import proofs.«160027_j3092376453137_1_alg».proof.Proof.KValue
import proofs.«160027_j3092376453137_1_alg».proof.Proof.BridgeNorm
import proofs.«160027_j3092376453137_1_alg».proof.Proof.RealLayer
import proofs.«160027_j3092376453137_1_alg».proof.Proof.PreReal
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization is the program's own text read over the extended reals. -/
theorem preserves : Cert.preserves_Kernel_KernelIdeal := trivial

/-- From memories that agree on the arguments, with finite float inputs, both programs end with the same result: the
    kernel program's is the encoder as it computes it, of the arguments as launched; the reference's is its last stage;
    the two are one function where the first layer is finite, and it is, the node features, the first weights and the
    first bias being real. -/
theorem algebraic : Cert.algebraic_KernelIdeal_ReferenceIdeal := by
  intro m ρ m' ρ' hpre hagree
  refine ⟨fun c => Cert.KernelIdeal.Gen.W8 m ρ c (Proc.devRef .tc Cert.KernelIdeal.main_v53),
    Cert.KernelIdeal.GenP.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v78 m' c = Cert.KernelIdeal.Gen.W8 m ρ c (Proc.devRef .tc Cert.KernelIdeal.main_v53)
  obtain ⟨a0, a1, a2, a3, a4, a5, a6, a7, a8, a9⟩ := hagree c
  obtain ⟨r0, r2, r3, r4⟩ := Cert.Bridge.real_of_fn _ _ _ _ _ _ _ _ _ _ (hpre c)
  rw [Cert.ReferenceIdeal.ReadP.val_main_v78_eq, Cert.KernelIdeal.Host.kernel_value, a0, a1, a2, a3, a4, a5, a6, a7, a8, a9]
  exact (Cert.Bridge.outK_ref _ _ _ _ _ _ _ _ _ _ (Cert.Bridge.h1_real _ _ _ _ _ r0 r2 r3 r4)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
